-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S100000x5 : Shape := ⟨2, ![100000, 5]⟩
abbrev S2x2000000 : Shape := ⟨2, ![2, 2000000]⟩
abbrev S2000000x10 : Shape := ⟨2, ![2000000, 10]⟩
abbrev S10000x10 : Shape := ⟨2, ![10000, 10]⟩
abbrev S2000000 : Shape := ⟨1, ![2000000]⟩
abbrev S35x10 : Shape := ⟨2, ![35, 10]⟩
abbrev S10 : Shape := ⟨1, ![10]⟩
abbrev S10x10 : Shape := ⟨2, ![10, 10]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S100000x5 : S_.BroadcastsInDim S100000x5 (![] : Fin 0 → Fin S100000x5.rank)
  reducesTo_S100000x5_S_d0_1 : S100000x5.ReducesTo [0, 1] S_
  bcast_S_S2000000x10 : S_.BroadcastsInDim S2000000x10 (![] : Fin 0 → Fin S2000000x10.rank)
  reducesTo_S2000000x10_S_d0_1 : S2000000x10.ReducesTo [0, 1] S_
  bcast_S_S10000x10 : S_.BroadcastsInDim S10000x10 (![] : Fin 0 → Fin S10000x10.rank)
  reducesTo_S10000x10_S_d0_1 : S10000x10.ReducesTo [0, 1] S_
  bcast_S_S35x10 : S_.BroadcastsInDim S35x10 (![] : Fin 0 → Fin S35x10.rank)
  reducesTo_S35x10_S_d0_1 : S35x10.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S2x2000000 : S_.BroadcastsInDim S2x2000000 (![] : Fin 0 → Fin S2x2000000.rank)
  reducesTo_S2x2000000_S_d0_1 : S2x2000000.ReducesTo [0, 1] S_
  bcast_S_S2000000 : S_.BroadcastsInDim S2000000 (![] : Fin 0 → Fin S2000000.rank)
  reducesTo_S2000000_S_d0 : S2000000.ReducesTo [0] S_

variable [Facts]

def fn_part3 {F : FTy → Type} [FloatOps F] (main_v45 : IVec S_ 1) (main_v50 : IVec S2000000 1) : IVec S_ 1 :=
  let main_c_19 : IVec S_ 1 := constantI S_ 1 1#1
  let main_v51 : IVec S_ 1 := (fun x v => Host.reduce IntOp.andi x v reducesTo_S2000000_S_d0 h_S_) main_v50 main_c_19
  let main_v52 : IVec S_ 1 := andi main_v45 main_v51
  main_v52

def fn_part2 {F : FTy → Type} [FloatOps F] (main_arg2 : IVec S2x2000000 32) (main_arg5 : IVec S2000000 32) (main_arg9 : FVec F S10 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_c_14 : IVec S_ 32 := constantI S_ 32 4294867296#32
  let main_v39 : IVec S2x2000000 32 := broadcastInDim S2x2000000 ![] bcast_S_S2x2000000 main_c_14
  let main_v40 : IVec S2x2000000 1 := cmpi .sge main_arg2 main_v39
  let main_c_15 : IVec S_ 32 := constantI S_ 32 100000#32
  let main_v41 : IVec S2x2000000 32 := broadcastInDim S2x2000000 ![] bcast_S_S2x2000000 main_c_15
  let main_v42 : IVec S2x2000000 1 := cmpi .slt main_arg2 main_v41
  let main_v43 : IVec S2x2000000 1 := andi main_v40 main_v42
  let main_c_16 : IVec S_ 1 := constantI S_ 1 1#1
  let main_v44 : IVec S_ 1 := (fun x v => Host.reduce IntOp.andi x v reducesTo_S2x2000000_S_d0_1 h_S_) main_v43 main_c_16
  let main_v45 : IVec S_ 1 := andi main_v38 main_v44
  let main_c_17 : IVec S_ 32 := constantI S_ 32 4294957296#32
  let main_v46 : IVec S2000000 32 := broadcastInDim S2000000 ![] bcast_S_S2000000 main_c_17
  let main_v47 : IVec S2000000 1 := cmpi .sge main_arg5 main_v46
  let main_c_18 : IVec S_ 32 := constantI S_ 32 10000#32
  let main_v48 : IVec S2000000 32 := broadcastInDim S2000000 ![] bcast_S_S2000000 main_c_18
  let main_v49 : IVec S2000000 1 := cmpi .slt main_arg5 main_v48
  let main_v50 : IVec S2000000 1 := andi main_v47 main_v49
  fn_part3 (F := F) main_v45 main_v50

def fn_part1 {F : FTy → Type} [FloatOps F] (main_arg2 : IVec S2x2000000 32) (main_arg5 : IVec S2000000 32) (main_arg6 : FVec F S35x10 .f32) (main_arg7 : FVec F S10 .f32) (main_arg8 : FVec F S10x10 .f32) (main_arg9 : FVec F S10 .f32) (main_v13 : IVec S_ 1) (main_v16 : IVec S10000x10 1) : IVec S_ 1 :=
  let main_c_5 : IVec S_ 1 := constantI S_ 1 1#1
  let main_v17 : IVec S_ 1 := (fun x v => Host.reduce IntOp.andi x v reducesTo_S10000x10_S_d0_1 h_S_) main_v16 main_c_5
  let main_v18 : IVec S_ 1 := andi main_v13 main_v17
  let main_v19 : FVec F S35x10 .f32 := Host.absf main_arg6
  let main_cst_6 : FVec F S_ .f32 := constant S_ .f32 0x7F800000#32
  let main_v20 : FVec F S35x10 .f32 := broadcastInDim S35x10 ![] bcast_S_S35x10 main_cst_6
  let main_v21 : IVec S35x10 1 := cmpf .olt main_v19 main_v20
  let main_c_7 : IVec S_ 1 := constantI S_ 1 1#1
  let main_v22 : IVec S_ 1 := (fun x v => Host.reduce IntOp.andi x v reducesTo_S35x10_S_d0_1 h_S_) main_v21 main_c_7
  let main_v23 : IVec S_ 1 := andi main_v18 main_v22
  let main_v24 : FVec F S10 .f32 := Host.absf main_arg7
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10x10 .f32 := Host.absf main_arg8
  let main_cst_10 : FVec F S_ .f32 := constant S_ .f32 0x7F800000#32
  let main_v30 : FVec F S10x10 .f32 := broadcastInDim S10x10 ![] bcast_S_S10x10 main_cst_10
  let main_v31 : IVec S10x10 1 := cmpf .olt main_v29 main_v30
  let main_c_11 : IVec S_ 1 := constantI S_ 1 1#1
  let main_v32 : IVec S_ 1 := (fun x v => Host.reduce IntOp.andi x v reducesTo_S10x10_S_d0_1 h_S_) main_v31 main_c_11
  let main_v33 : IVec S_ 1 := andi main_v28 main_v32
  fn_part2 (F := F) main_arg2 main_arg5 main_arg9 main_v33

def fn {F : FTy → Type} [FloatOps F] (main_arg0 : FVec F S100000x10 .f32) (main_arg1 : FVec F S100000x5 .f32) (main_arg2 : IVec S2x2000000 32) (main_arg3 : FVec F S2000000x10 .f32) (main_arg4 : FVec F S10000x10 .f32) (main_arg5 : IVec S2000000 32) (main_arg6 : FVec F S35x10 .f32) (main_arg7 : FVec F S10 .f32) (main_arg8 : FVec F S10x10 .f32) (main_arg9 : FVec F S10 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S100000x5 .f32 := Host.absf main_arg1
  let main_cst_0 : FVec F S_ .f32 := constant S_ .f32 0x7F800000#32
  let main_v5 : FVec F S100000x5 .f32 := broadcastInDim S100000x5 ![] bcast_S_S100000x5 main_cst_0
  let main_v6 : IVec S100000x5 1 := cmpf .olt main_v4 main_v5
  let main_c_1 : IVec S_ 1 := constantI S_ 1 1#1
  let main_v7 : IVec S_ 1 := (fun x v => Host.reduce IntOp.andi x v reducesTo_S100000x5_S_d0_1 h_S_) main_v6 main_c_1
  let main_v8 : IVec S_ 1 := andi main_v3 main_v7
  let main_v9 : FVec F S2000000x10 .f32 := Host.absf main_arg3
  let main_cst_2 : FVec F S_ .f32 := constant S_ .f32 0x7F800000#32
  let main_v10 : FVec F S2000000x10 .f32 := broadcastInDim S2000000x10 ![] bcast_S_S2000000x10 main_cst_2
  let main_v11 : IVec S2000000x10 1 := cmpf .olt main_v9 main_v10
  let main_c_3 : IVec S_ 1 := constantI S_ 1 1#1
  let main_v12 : IVec S_ 1 := (fun x v => Host.reduce IntOp.andi x v reducesTo_S2000000x10_S_d0_1 h_S_) main_v11 main_c_3
  let main_v13 : IVec S_ 1 := andi main_v8 main_v12
  let main_v14 : FVec F S10000x10 .f32 := Host.absf main_arg4
  let main_cst_4 : FVec F S_ .f32 := constant S_ .f32 0x7F800000#32
  let main_v15 : FVec F S10000x10 .f32 := broadcastInDim S10000x10 ![] bcast_S_S10000x10 main_cst_4
  let main_v16 : IVec S10000x10 1 := cmpf .olt main_v14 main_v15
  fn_part1 (F := F) main_arg2 main_arg5 main_arg6 main_arg7 main_arg8 main_arg9 main_v13 main_v16
-- ==== Kernel.lean ====
abbrev S100000x10 : Shape := ⟨2, ![100000, 10]⟩
abbrev S100000x5 : Shape := ⟨2, ![100000, 5]⟩
abbrev S2x2000000 : Shape := ⟨2, ![2, 2000000]⟩
abbrev S2000000x10 : Shape := ⟨2, ![2000000, 10]⟩
abbrev S10000x10 : Shape := ⟨2, ![10000, 10]⟩
abbrev S2000000 : Shape := ⟨1, ![2000000]⟩
abbrev S35x10 : Shape := ⟨2, ![35, 10]⟩
abbrev S10 : Shape := ⟨1, ![10]⟩
abbrev S10x10 : Shape := ⟨2, ![10, 10]⟩
abbrev S1x2000000 : Shape := ⟨2, ![1, 2000000]⟩
abbrev S_ : Shape := ⟨0, ![]⟩
abbrev S2000000x1 : Shape := ⟨2, ![2000000, 1]⟩
abbrev S1 : Shape := ⟨1, ![1]⟩
abbrev S1x1 : Shape := ⟨2, ![1, 1]⟩
abbrev S2000000x5 : Shape := ⟨2, ![2000000, 5]⟩
abbrev S5x10 : Shape := ⟨2, ![5, 10]⟩
abbrev S1x10 : Shape := ⟨2, ![1, 10]⟩
abbrev S4000x10 : Shape := ⟨2, ![4000, 10]⟩
abbrev S4000x5 : Shape := ⟨2, ![4000, 5]⟩

abbrev nBuf : Space → Nat
  | .hbm => 90
  | .vmem => 17
  | .smem => 0
  | _ => 0

abbrev bufTy : (tb : Table) → Fin (tcTables nBuf tb) → BufTy
  | .hbm, ⟨0, _⟩ => ⟨S100000x10, .f32⟩
  | .hbm, ⟨1, _⟩ => ⟨S100000x5, .f32⟩
  | .hbm, ⟨2, _⟩ => ⟨S2x2000000, .i32⟩
  | .hbm, ⟨3, _⟩ => ⟨S2000000x10, .f32⟩
  | .hbm, ⟨4, _⟩ => ⟨S10000x10, .f32⟩
  | .hbm, ⟨5, _⟩ => ⟨S2000000, .i32⟩
  | .hbm, ⟨6, _⟩ => ⟨S35x10, .f32⟩
  | .hbm, ⟨7, _⟩ => ⟨S10, .f32⟩
  | .hbm, ⟨8, _⟩ => ⟨S10x10, .f32⟩
  | .hbm, ⟨9, _⟩ => ⟨S10, .f32⟩
  | .hbm, ⟨10, _⟩ => ⟨S1x2000000, .i32⟩
  | .hbm, ⟨11, _⟩ => ⟨S2000000, .i32⟩
  | .hbm, ⟨12, _⟩ => ⟨S1x2000000, .i32⟩
  | .hbm, ⟨13, _⟩ => ⟨S2000000, .i32⟩
  | .hbm, ⟨14, _⟩ => ⟨S_, .i32⟩
  | .hbm, ⟨15, _⟩ => ⟨S2000000, .i32⟩
  | .hbm, ⟨16, _⟩ => ⟨S2000000, .i1⟩
  | .hbm, ⟨17, _⟩ => ⟨S_, .i32⟩
  | .hbm, ⟨18, _⟩ => ⟨S2000000, .i32⟩
  | .hbm, ⟨19, _⟩ => ⟨S2000000, .i32⟩
  | .hbm, ⟨20, _⟩ => ⟨S2000000, .i32⟩
  | .hbm, ⟨21, _⟩ => ⟨S2000000x1, .i32⟩
  | .hbm, ⟨22, _⟩ => ⟨S1, .i32⟩
  | .hbm, ⟨23, _⟩ => ⟨S_, .i32⟩
  | .hbm, ⟨24, _⟩ => ⟨S2000000x1, .i32⟩
  | .hbm, ⟨25, _⟩ => ⟨S2000000x1, .i1⟩
  | .hbm, ⟨26, _⟩ => ⟨S1x1, .i32⟩
  | .hbm, ⟨27, _⟩ => ⟨S2000000x1, .i32⟩
  | .hbm, ⟨28, _⟩ => ⟨S2000000x1, .i1⟩
  | .hbm, ⟨29, _⟩ => ⟨S2000000x1, .i1⟩
  | .hbm, ⟨30, _⟩ => ⟨S_, .i1⟩
  | .hbm, ⟨31, _⟩ => ⟨S2000000, .i1⟩
  | .hbm, ⟨32, _⟩ => ⟨S2000000x10, .f32⟩
  | .hbm, ⟨33, _⟩ => ⟨S2000000x10, .i1⟩
  | .hbm, ⟨34, _⟩ => ⟨S_, .f32⟩
  | .hbm, ⟨35, _⟩ => ⟨S2000000x10, .f32⟩
  | .hbm, ⟨36, _⟩ => ⟨S2000000x10, .f32⟩
  | .hbm, ⟨37, _⟩ => ⟨S_, .i32⟩
  | .hbm, ⟨38, _⟩ => ⟨S2000000, .i32⟩
  | .hbm, ⟨39, _⟩ => ⟨S2000000, .i1⟩
  | .hbm, ⟨40, _⟩ => ⟨S_, .i32⟩
  | .hbm, ⟨41, _⟩ => ⟨S2000000, .i32⟩
  | .hbm, ⟨42, _⟩ => ⟨S2000000, .i32⟩
  | .hbm, ⟨43, _⟩ => ⟨S2000000, .i32⟩
  | .hbm, ⟨44, _⟩ => ⟨S2000000x1, .i32⟩
  | .hbm, ⟨45, _⟩ => ⟨S1, .i32⟩
  | .hbm, ⟨46, _⟩ => ⟨S_, .i32⟩
  | .hbm, ⟨47, _⟩ => ⟨S2000000x1, .i32⟩
  | .hbm, ⟨48, _⟩ => ⟨S2000000x1, .i1⟩
  | .hbm, ⟨49, _⟩ => ⟨S1x1, .i32⟩
  | .hbm, ⟨50, _⟩ => ⟨S2000000x1, .i32⟩
  | .hbm, ⟨51, _⟩ => ⟨S2000000x1, .i1⟩
  | .hbm, ⟨52, _⟩ => ⟨S2000000x1, .i1⟩
  | .hbm, ⟨53, _⟩ => ⟨S_, .i1⟩
  | .hbm, ⟨54, _⟩ => ⟨S2000000, .i1⟩
  | .hbm, ⟨55, _⟩ => ⟨S2000000x5, .f32⟩
  | .hbm, ⟨56, _⟩ => ⟨S2000000x5, .i1⟩
  | .hbm, ⟨57, _⟩ => ⟨S_, .f32⟩
  | .hbm, ⟨58, _⟩ => ⟨S2000000x5, .f32⟩
  | .hbm, ⟨59, _⟩ => ⟨S2000000x5, .f32⟩
  | .hbm, ⟨60, _⟩ => ⟨S_, .i32⟩
  | .hbm, ⟨61, _⟩ => ⟨S2000000, .i32⟩
  | .hbm, ⟨62, _⟩ => ⟨S2000000, .i1⟩
  | .hbm, ⟨63, _⟩ => ⟨S_, .i32⟩
  | .hbm, ⟨64, _⟩ => ⟨S2000000, .i32⟩
  | .hbm, ⟨65, _⟩ => ⟨S2000000, .i32⟩
  | .hbm, ⟨66, _⟩ => ⟨S2000000, .i32⟩
  | .hbm, ⟨67, _⟩ => ⟨S2000000x1, .i32⟩
  | .hbm, ⟨68, _⟩ => ⟨S1, .i32⟩
  | .hbm, ⟨69, _⟩ => ⟨S_, .i32⟩
  | .hbm, ⟨70, _⟩ => ⟨S2000000x1, .i32⟩
  | .hbm, ⟨71, _⟩ => ⟨S2000000x1, .i1⟩
  | .hbm, ⟨72, _⟩ => ⟨S1x1, .i32⟩
  | .hbm, ⟨73, _⟩ => ⟨S2000000x1, .i32⟩
  | .hbm, ⟨74, _⟩ => ⟨S2000000x1, .i1⟩
  | .hbm, ⟨75, _⟩ => ⟨S2000000x1, .i1⟩
  | .hbm, ⟨76, _⟩ => ⟨S_, .i1⟩
  | .hbm, ⟨77, _⟩ => ⟨S2000000, .i1⟩
  | .hbm, ⟨78, _⟩ => ⟨S2000000x10, .f32⟩
  | .hbm, ⟨79, _⟩ => ⟨S2000000x10, .i1⟩
  | .hbm, ⟨80, _⟩ => ⟨S_, .f32⟩
  | .hbm, ⟨81, _⟩ => ⟨S2000000x10, .f32⟩
  | .hbm, ⟨82, _⟩ => ⟨S2000000x10, .f32⟩
  | .hbm, ⟨83, _⟩ => ⟨S10x10, .f32⟩
  | .hbm, ⟨84, _⟩ => ⟨S5x10, .f32⟩
  | .hbm, ⟨85, _⟩ => ⟨S10x10, .f32⟩
  | .hbm, ⟨86, _⟩ => ⟨S10x10, .f32⟩
  | .hbm, ⟨87, _⟩ => ⟨S1x10, .f32⟩
  | .hbm, ⟨88, _⟩ => ⟨S1x10, .f32⟩
  | .hbm, ⟨89, _⟩ => ⟨S2000000x10, .f32⟩
  | .local _ .vmem, ⟨0, _⟩ => ⟨S4000x10, .f32⟩
  | .local _ .vmem, ⟨1, _⟩ => ⟨S4000x10, .f32⟩
  | .local _ .vmem, ⟨2, _⟩ => ⟨S4000x5, .f32⟩
  | .local _ .vmem, ⟨3, _⟩ => ⟨S4000x5, .f32⟩
  | .local _ .vmem, ⟨4, _⟩ => ⟨S4000x10, .f32⟩
  | .local _ .vmem, ⟨5, _⟩ => ⟨S4000x10, .f32⟩
  | .local _ .vmem, ⟨6, _⟩ => ⟨S4000x10, .f32⟩
  | .local _ .vmem, ⟨7, _⟩ => ⟨S4000x10, .f32⟩
  | .local _ .vmem, ⟨8, _⟩ => ⟨S10x10, .f32⟩
  | .local _ .vmem, ⟨9, _⟩ => ⟨S5x10, .f32⟩
  | .local _ .vmem, ⟨10, _⟩ => ⟨S10x10, .f32⟩
  | .local _ .vmem, ⟨11, _⟩ => ⟨S10x10, .f32⟩
  | .local _ .vmem, ⟨12, _⟩ => ⟨S1x10, .f32⟩
  | .local _ .vmem, ⟨13, _⟩ => ⟨S10x10, .f32⟩
  | .local _ .vmem, ⟨14, _⟩ => ⟨S1x10, .f32⟩
  | .local _ .vmem, ⟨15, _⟩ => ⟨S4000x10, .f32⟩
  | .local _ .vmem, ⟨16, _⟩ => ⟨S4000x10, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v5 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v6 : Ref sig .tc := ⟨.hbm, 82, rfl⟩
abbrev main_v7 : Ref sig .tc := ⟨.hbm, 83, rfl⟩
abbrev main_v8 : Ref sig .tc := ⟨.hbm, 84, rfl⟩
abbrev main_v9 : Ref sig .tc := ⟨.hbm, 85, rfl⟩
abbrev main_v10 : Ref sig .tc := ⟨.hbm, 86, rfl⟩
abbrev main_v11 : Ref sig .tc := ⟨.hbm, 87, rfl⟩
abbrev main_v12 : Ref sig .tc := ⟨.hbm, 88, rfl⟩
abbrev main_v13 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S10x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x10_0 : S2000000.BroadcastsInDim S2000000x10 (![0] : Fin 1 → Fin S2000000x10.rank)
  bcast_S_S2000000x10 : S_.BroadcastsInDim S2000000x10 (![] : Fin 0 → Fin S2000000x10.rank)
  bcast_S2000000_S2000000x5_0 : S2000000.BroadcastsInDim S2000000x5 (![0] : Fin 1 → Fin S2000000x5.rank)
  bcast_S_S2000000x5 : S_.BroadcastsInDim S2000000x5 (![] : Fin 0 → Fin S2000000x5.rank)
  slices_S35x10_S10x10_0_0 : S35x10.Slices ![0, 0] S10x10
  slices_S35x10_S5x10_10_0 : S35x10.Slices ![10, 0] S5x10
  slices_S35x10_S10x10_15_0 : S35x10.Slices ![15, 0] S10x10
  slices_S35x10_S10x10_25_0 : S35x10.Slices ![25, 0] S10x10
  shapeCasts_S10_S1x10 : S10.ShapeCasts S1x10
  inb_S4000x10_S4000x10_0_0 : ∀ a, (![0, 0] : Fin 2 → Nat) a + S4000x10.size a ≤ S4000x10.size a
  h_S4000x10 : 0 < S4000x10.numel
  shapeCasts_S4000x10_S4000x10 : S4000x10.ShapeCasts S4000x10
  bitsLt_bf16_f32 : FTy.bits .bf16 < FTy.bits .f32
  inb_S4000x5_S4000x5_0_0 : ∀ a, (![0, 0] : Fin 2 → Nat) a + S4000x5.size a ≤ S4000x5.size a
  h_S4000x5 : 0 < S4000x5.numel
  shapeCasts_S4000x5_S4000x5 : S4000x5.ShapeCasts S4000x5
  inb_S10x10_S10x10_0_0 : ∀ a, (![0, 0] : Fin 2 → Nat) a + S10x10.size a ≤ S10x10.size a
  h_S10x10 : 0 < S10x10.numel
  shapeCasts_S10x10_S10x10 : S10x10.ShapeCasts S10x10
  inb_S5x10_S5x10_0_0 : ∀ a, (![0, 0] : Fin 2 → Nat) a + S5x10.size a ≤ S5x10.size a
  h_S5x10 : 0 < S5x10.numel
  shapeCasts_S5x10_S5x10 : S5x10.ShapeCasts S5x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S4000x10 : S1x10.Broadcasts S4000x10
  gather_S100000x10_S2000000x1_S2000000x10_1_0_n_n_0_1_110_wf : GatherDims.WF S100000x10 S2000000x1 S2000000x10 [1] [0] [] [0] [] 1 ![1, 10]
  gather_S100000x5_S2000000x1_S2000000x5_1_0_n_n_0_1_15_wf : GatherDims.WF S100000x5 S2000000x1 S2000000x5 [1] [0] [] [0] [] 1 ![1, 5]
  gather_S10000x10_S2000000x1_S2000000x10_1_0_n_n_0_1_110_wf : GatherDims.WF S10000x10 S2000000x1 S2000000x10 [1] [0] [] [0] [] 1 ![1, 10]
  dot_S4000x10_S10x10_S4000x10_1_0_0_1_n_n_wf : DotDims.WF S4000x10 S10x10 S4000x10 [1] [0] [0] [1] [] []
  dot_S4000x5_S5x10_S4000x10_1_0_0_1_n_n_wf : DotDims.WF S4000x5 S5x10 S4000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x10.size a ≤ S2000000x10.size a
  hwx0_0 : ∀ i : grid0.Coords, EltTy.bits .f32 = 32 ∨ (Rect.block (s := S2000000x10) S4000x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x5.size a ≤ S2000000x5.size a
  hwx0_1 : ∀ i : grid0.Coords, EltTy.bits .f32 = 32 ∨ (Rect.block (s := S2000000x5) S4000x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x10.size a ≤ S2000000x10.size a
  hwx0_2 : ∀ i : grid0.Coords, EltTy.bits .f32 = 32 ∨ (Rect.block (s := S2000000x10) S4000x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x10.size a ≤ S2000000x10.size a
  hwx0_3 : ∀ i : grid0.Coords, EltTy.bits .f32 = 32 ∨ (Rect.block (s := S2000000x10) S4000x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x10.size a ≤ S10x10.size a
  hwx0_4 : ∀ i : grid0.Coords, EltTy.bits .f32 = 32 ∨ (Rect.block (s := S10x10) S10x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x10.size a ≤ S5x10.size a
  hwx0_5 : ∀ i : grid0.Coords, EltTy.bits .f32 = 32 ∨ (Rect.block (s := S5x10) S5x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10x10.size a ≤ S10x10.size a
  hwx0_6 : ∀ i : grid0.Coords, EltTy.bits .f32 = 32 ∨ (Rect.block (s := S10x10) S10x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x10.size a ≤ S10x10.size a
  hwx0_7 : ∀ i : grid0.Coords, EltTy.bits .f32 = 32 ∨ (Rect.block (s := S10x10) S10x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S10x10.size a ≤ S10x10.size a
  hwx0_9 : ∀ i : grid0.Coords, EltTy.bits .f32 = 32 ∨ (Rect.block (s := S10x10) S10x10.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x10.size a ≤ S1x10.size a
  hwx0_10 : ∀ i : grid0.Coords, EltTy.bits .f32 = 32 ∨ (Rect.block (s := S1x10) S1x10.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x10.size a ≤ S2000000x10.size a
  hwx0_11 : ∀ i : grid0.Coords, EltTy.bits .f32 = 32 ∨ (Rect.block (s := S2000000x10) S4000x10.size (cc0_transform_11 i) (hinb0_11 i)).WholeWords (EltTy.packing .f32)

variable [Facts₀]

def gather_S100000x10_S2000000x1_S2000000x10_1_0_n_n_0_1_110 : GatherDims S100000x10 S2000000x1 S2000000x10 where
  offsetDims := [1]
  collapsedSliceDims := [0]
  operandBatchingDims := []
  startIndicesBatchingDims := []
  startIndexMap := [0]
  indexVectorDim := 1
  sliceSizes := ![1, 10]
  wf := gather_S100000x10_S2000000x1_S2000000x10_1_0_n_n_0_1_110_wf
def gather_S100000x5_S2000000x1_S2000000x5_1_0_n_n_0_1_15 : GatherDims S100000x5 S2000000x1 S2000000x5 where
  offsetDims := [1]
  collapsedSliceDims := [0]
  operandBatchingDims := []
  startIndicesBatchingDims := []
  startIndexMap := [0]
  indexVectorDim := 1
  sliceSizes := ![1, 5]
  wf := gather_S100000x5_S2000000x1_S2000000x5_1_0_n_n_0_1_15_wf
def gather_S10000x10_S2000000x1_S2000000x10_1_0_n_n_0_1_110 : GatherDims S10000x10 S2000000x1 S2000000x10 where
  offsetDims := [1]
  collapsedSliceDims := [0]
  operandBatchingDims := []
  startIndicesBatchingDims := []
  startIndexMap := [0]
  indexVectorDim := 1
  sliceSizes := ![1, 10]
  wf := gather_S10000x10_S2000000x1_S2000000x10_1_0_n_n_0_1_110_wf
def dot_S4000x10_S10x10_S4000x10_1_0_0_1_n_n : DotDims S4000x10 S10x10 S4000x10 where
  lhsContracting := [1]
  rhsContracting := [0]
  lhsNonContracting := [0]
  rhsNonContracting := [1]
  lhsBatch := []
  rhsBatch := []
  wf := dot_S4000x10_S10x10_S4000x10_1_0_0_1_n_n_wf
def dot_S4000x5_S5x10_S4000x10_1_0_0_1_n_n : DotDims S4000x5 S5x10 S4000x10 where
  lhsContracting := [1]
  rhsContracting := [0]
  lhsNonContracting := [0]
  rhsNonContracting := [1]
  lhsBatch := []
  rhsBatch := []
  wf := dot_S4000x5_S5x10_S4000x10_1_0_0_1_n_n_wf

abbrev win0_0 : Pipeline.Window sig grid0 :=
  Pipeline.Window.ofSpec (Memref.whole main_v4) S4000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4000x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4000x10.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S10x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S5x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S10x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S10x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S10x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S4000x10.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x10 : Shape := ⟨2, ![100000, 10]⟩
abbrev S100000x5 : Shape := ⟨2, ![100000, 5]⟩
abbrev S2x2000000 : Shape := ⟨2, ![2, 2000000]⟩
abbrev S2000000x10 : Shape := ⟨2, ![2000000, 10]⟩
abbrev S10000x10 : Shape := ⟨2, ![10000, 10]⟩
abbrev S2000000 : Shape := ⟨1, ![2000000]⟩
abbrev S35x10 : Shape := ⟨2, ![35, 10]⟩
abbrev S10 : Shape := ⟨1, ![10]⟩
abbrev S10x10 : Shape := ⟨2, ![10, 10]⟩
abbrev S1x2000000 : Shape := ⟨2, ![1, 2000000]⟩
abbrev S_ : Shape := ⟨0, ![]⟩
abbrev S2000000x1 : Shape := ⟨2, ![2000000, 1]⟩
abbrev S2000000x5 : Shape := ⟨2, ![2000000, 5]⟩
abbrev S2000000x35 : Shape := ⟨2, ![2000000, 35]⟩
abbrev S1x10 : Shape := ⟨2, ![1, 10]⟩

abbrev nBuf : Space → Nat
  | .hbm => 58
  | .vmem => 0
  | .smem => 0
  | _ => 0

abbrev bufTy : (tb : Table) → Fin (tcTables nBuf tb) → BufTy
  | .hbm, ⟨0, _⟩ => ⟨S100000x10, .f32⟩
  | .hbm, ⟨1, _⟩ => ⟨S100000x5, .f32⟩
  | .hbm, ⟨2, _⟩ => ⟨S2x2000000, .i32⟩
  | .hbm, ⟨3, _⟩ => ⟨S2000000x10, .f32⟩
  | .hbm, ⟨4, _⟩ => ⟨S10000x10, .f32⟩
  | .hbm, ⟨5, _⟩ => ⟨S2000000, .i32⟩
  | .hbm, ⟨6, _⟩ => ⟨S35x10, .f32⟩
  | .hbm, ⟨7, _⟩ => ⟨S10, .f32⟩
  | .hbm, ⟨8, _⟩ => ⟨S10x10, .f32⟩
  | .hbm, ⟨9, _⟩ => ⟨S10, .f32⟩
  | .hbm, ⟨10, _⟩ => ⟨S1x2000000, .i32⟩
  | .hbm, ⟨11, _⟩ => ⟨S2000000, .i32⟩
  | .hbm, ⟨12, _⟩ => ⟨S1x2000000, .i32⟩
  | .hbm, ⟨13, _⟩ => ⟨S2000000, .i32⟩
  | .hbm, ⟨14, _⟩ => ⟨S_, .i32⟩
  | .hbm, ⟨15, _⟩ => ⟨S2000000, .i32⟩
  | .hbm, ⟨16, _⟩ => ⟨S2000000, .i1⟩
  | .hbm, ⟨17, _⟩ => ⟨S_, .i32⟩
  | .hbm, ⟨18, _⟩ => ⟨S2000000, .i32⟩
  | .hbm, ⟨19, _⟩ => ⟨S2000000, .i32⟩
  | .hbm, ⟨20, _⟩ => ⟨S2000000, .i32⟩
  | .hbm, ⟨21, _⟩ => ⟨S2000000x1, .i32⟩
  | .hbm, ⟨22, _⟩ => ⟨S2000000x10, .f32⟩
  | .hbm, ⟨23, _⟩ => ⟨S_, .i32⟩
  | .hbm, ⟨24, _⟩ => ⟨S2000000, .i32⟩
  | .hbm, ⟨25, _⟩ => ⟨S2000000, .i1⟩
  | .hbm, ⟨26, _⟩ => ⟨S_, .i32⟩
  | .hbm, ⟨27, _⟩ => ⟨S2000000, .i32⟩
  | .hbm, ⟨28, _⟩ => ⟨S2000000, .i32⟩
  | .hbm, ⟨29, _⟩ => ⟨S2000000, .i32⟩
  | .hbm, ⟨30, _⟩ => ⟨S2000000x1, .i32⟩
  | .hbm, ⟨31, _⟩ => ⟨S2000000x5, .f32⟩
  | .hbm, ⟨32, _⟩ => ⟨S_, .i32⟩
  | .hbm, ⟨33, _⟩ => ⟨S2000000, .i32⟩
  | .hbm, ⟨34, _⟩ => ⟨S2000000, .i1⟩
  | .hbm, ⟨35, _⟩ => ⟨S_, .i32⟩
  | .hbm, ⟨36, _⟩ => ⟨S2000000, .i32⟩
  | .hbm, ⟨37, _⟩ => ⟨S2000000, .i32⟩
  | .hbm, ⟨38, _⟩ => ⟨S2000000, .i32⟩
  | .hbm, ⟨39, _⟩ => ⟨S2000000x1, .i32⟩
  | .hbm, ⟨40, _⟩ => ⟨S2000000x10, .f32⟩
  | .hbm, ⟨41, _⟩ => ⟨S2000000x35, .f32⟩
  | .hbm, ⟨42, _⟩ => ⟨S2000000x10, .f32⟩
  | .hbm, ⟨43, _⟩ => ⟨S1x10, .f32⟩
  | .hbm, ⟨44, _⟩ => ⟨S2000000x10, .f32⟩
  | .hbm, ⟨45, _⟩ => ⟨S2000000x10, .f32⟩
  | .hbm, ⟨46, _⟩ => ⟨S_, .f32⟩
  | .hbm, ⟨47, _⟩ => ⟨S_, .f32⟩
  | .hbm, ⟨48, _⟩ => ⟨S2000000x10, .f32⟩
  | .hbm, ⟨49, _⟩ => ⟨S2000000x10, .i1⟩
  | .hbm, ⟨50, _⟩ => ⟨S_, .f32⟩
  | .hbm, ⟨51, _⟩ => ⟨S2000000x10, .f32⟩
  | .hbm, ⟨52, _⟩ => ⟨S2000000x10, .f32⟩
  | .hbm, ⟨53, _⟩ => ⟨S2000000x10, .f32⟩
  | .hbm, ⟨54, _⟩ => ⟨S2000000x10, .f32⟩
  | .hbm, ⟨55, _⟩ => ⟨S1x10, .f32⟩
  | .hbm, ⟨56, _⟩ => ⟨S2000000x10, .f32⟩
  | .hbm, ⟨57, _⟩ => ⟨S2000000x10, .f32⟩
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x10_S2000000x5_S2000000x10_S2000000x10_S2000000x35_d1 : Shape.Concatenates [S2000000x10, S2000000x5, S2000000x10, S2000000x10] S2000000x35 1
  bcast_S10_S1x10_1 : S10.BroadcastsInDim S1x10 (![1] : Fin 1 → Fin S1x10.rank)
  bcast_S1x10_S2000000x10_0_1 : S1x10.BroadcastsInDim S2000000x10 (![0, 1] : Fin 2 → Fin S2000000x10.rank)
  bcast_S_S2000000x10 : S_.BroadcastsInDim S2000000x10 (![] : Fin 0 → Fin S2000000x10.rank)
  gather_S100000x10_S2000000x1_S2000000x10_1_0_n_n_0_1_110_wf : GatherDims.WF S100000x10 S2000000x1 S2000000x10 [1] [0] [] [0] [] 1 ![1, 10]
  gather_S100000x5_S2000000x1_S2000000x5_1_0_n_n_0_1_15_wf : GatherDims.WF S100000x5 S2000000x1 S2000000x5 [1] [0] [] [0] [] 1 ![1, 5]
  gather_S10000x10_S2000000x1_S2000000x10_1_0_n_n_0_1_110_wf : GatherDims.WF S10000x10 S2000000x1 S2000000x10 [1] [0] [] [0] [] 1 ![1, 10]
  dot_S2000000x35_S35x10_S2000000x10_1_0_0_1_n_n_wf : DotDims.WF S2000000x35 S35x10 S2000000x10 [1] [0] [0] [1] [] []
  dot_S2000000x10_S10x10_S2000000x10_1_0_0_1_n_n_wf : DotDims.WF S2000000x10 S10x10 S2000000x10 [1] [0] [0] [1] [] []

variable [Facts₀]

def gather_S100000x10_S2000000x1_S2000000x10_1_0_n_n_0_1_110 : GatherDims S100000x10 S2000000x1 S2000000x10 where
  offsetDims := [1]
  collapsedSliceDims := [0]
  operandBatchingDims := []
  startIndicesBatchingDims := []
  startIndexMap := [0]
  indexVectorDim := 1
  sliceSizes := ![1, 10]
  wf := gather_S100000x10_S2000000x1_S2000000x10_1_0_n_n_0_1_110_wf
def gather_S100000x5_S2000000x1_S2000000x5_1_0_n_n_0_1_15 : GatherDims S100000x5 S2000000x1 S2000000x5 where
  offsetDims := [1]
  collapsedSliceDims := [0]
  operandBatchingDims := []
  startIndicesBatchingDims := []
  startIndexMap := [0]
  indexVectorDim := 1
  sliceSizes := ![1, 5]
  wf := gather_S100000x5_S2000000x1_S2000000x5_1_0_n_n_0_1_15_wf
def gather_S10000x10_S2000000x1_S2000000x10_1_0_n_n_0_1_110 : GatherDims S10000x10 S2000000x1 S2000000x10 where
  offsetDims := [1]
  collapsedSliceDims := [0]
  operandBatchingDims := []
  startIndicesBatchingDims := []
  startIndexMap := [0]
  indexVectorDim := 1
  sliceSizes := ![1, 10]
  wf := gather_S10000x10_S2000000x1_S2000000x10_1_0_n_n_0_1_110_wf
def dot_S2000000x35_S35x10_S2000000x10_1_0_0_1_n_n : DotDims S2000000x35 S35x10 S2000000x10 where
  lhsContracting := [1]
  rhsContracting := [0]
  lhsNonContracting := [0]
  rhsNonContracting := [1]
  lhsBatch := []
  rhsBatch := []
  wf := dot_S2000000x35_S35x10_S2000000x10_1_0_0_1_n_n_wf
def dot_S2000000x10_S10x10_S2000000x10_1_0_0_1_n_n : DotDims S2000000x10 S10x10 S2000000x10 where
  lhsContracting := [1]
  rhsContracting := [0]
  lhsNonContracting := [0]
  rhsNonContracting := [1]
  lhsBatch := []
  rhsBatch := []
  wf := dot_S2000000x10_S10x10_S2000000x10_1_0_0_1_n_n_wf

class Facts : Prop extends Facts₀ where

variable [Facts]
-- ==== Proof.Spec.lean ====
/-
  The edge-update network as one function on the extended reals.

  For an edge `e` the four feature rows — gathered source-node features `xs e` (10), gathered target-node features
  `xt e` (5), the edge's own attributes `ea e` (10) and the gathered graph-level features `ug e` (10) — are laid side
  by side into one row of 35 and multiplied by the stacked first-layer weight `W1` (35 × 10).  Because the row is a
  concatenation, that product is the sum of four partial products, one per piece, each against its own band of rows
  of `W1` (rows 0–9, 10–14, 15–24, 25–34).  The bias `b1` is added, the leaky rectifier applied, and a second 10 × 10
  layer `W2`, `b2` follows.  Nothing here needs the summands to be finite: only that addition on the extended reals is
  commutative and associative.
-/
import Idealize.ShloMosaic.Lib.ValueIdx

noncomputable section

open scoped BigOperators

namespace Cert.EdgeMlp

open Idealize.ShloMosaic Idealize.ShloMosaic.ValueIdx

/-- The rectifier's slope on the non-positive side: the binary32 number nearest one tenth (both programs carry this
    same word, so it is never evaluated). -/
abbrev slope : EReal := Ideal.ofBits .f32 0x3DCCCCCD#32

/-- The leaky rectifier: the identity on the positive side, `slope` times the argument elsewhere. -/
def act (h : EReal) : EReal := if 0 < h then h else slope * h

/-- Testing `0 ≤ h` in place of `0 < h` gives the same function: the two tests differ only at `h = 0`, and there the
    scaled branch is `slope * 0 = 0 = h`. -/
theorem act_of_le (h : EReal) : (if 0 ≤ h then h else slope * h) = act h := by
  unfold act
  by_cases h0 : 0 < h
  · rw [if_pos h0.le, if_pos h0]
  · rw [if_neg h0]
    by_cases h1 : 0 ≤ h
    · have hz : h = 0 := le_antisymm (not_lt.mp h0) h1
      rw [if_pos h1, hz, mul_zero]
    · rw [if_neg h1]

/-- The first layer before the rectifier, at edge `e` and hidden unit `j`: the four partial products against the four
    bands of rows of `W1`, summed in the order pieces are laid out, then the bias. -/
def hidden (xs : (⟨2, ![2000000, 10]⟩ : Shape).Idx → EReal) (xt : (⟨2, ![2000000, 5]⟩ : Shape).Idx → EReal)
    (ea ug : (⟨2, ![2000000, 10]⟩ : Shape).Idx → EReal) (W1 : (⟨2, ![35, 10]⟩ : Shape).Idx → EReal)
    (b1 : (⟨1, ![10]⟩ : Shape).Idx → EReal) (e : Fin 2000000) (j : Fin 10) : EReal :=
  (∑ k : Fin 10, xs (ix2 e k) * W1 (ix2 (⟨k.val, by omega⟩ : Fin 35) j))
    + (∑ k : Fin 5, xt (ix2 e k) * W1 (ix2 (⟨10 + k.val, by omega⟩ : Fin 35) j))
    + (∑ k : Fin 10, ea (ix2 e k) * W1 (ix2 (⟨15 + k.val, by omega⟩ : Fin 35) j))
    + (∑ k : Fin 10, ug (ix2 e k) * W1 (ix2 (⟨25 + k.val, by omega⟩ : Fin 35) j))
    + b1 (ix1 j)

/-- The network's output at edge `e`, output feature `j`. -/
def outAt (xs : (⟨2, ![2000000, 10]⟩ : Shape).Idx → EReal) (xt : (⟨2, ![2000000, 5]⟩ : Shape).Idx → EReal)
    (ea ug : (⟨2, ![2000000, 10]⟩ : Shape).Idx → EReal) (W1 : (⟨2, ![35, 10]⟩ : Shape).Idx → EReal)
    (b1 : (⟨1, ![10]⟩ : Shape).Idx → EReal) (W2 : (⟨2, ![10, 10]⟩ : Shape).Idx → EReal)
    (b2 : (⟨1, ![10]⟩ : Shape).Idx → EReal) (e : Fin 2000000) (j : Fin 10) : EReal :=
  (∑ k : Fin 10, act (hidden xs xt ea ug W1 b1 e k) * W2 (ix2 k j)) + b2 (ix1 j)

/-- The whole output array. -/
def out (xs : (⟨2, ![2000000, 10]⟩ : Shape).Idx → EReal) (xt : (⟨2, ![2000000, 5]⟩ : Shape).Idx → EReal)
    (ea ug : (⟨2, ![2000000, 10]⟩ : Shape).Idx → EReal) (W1 : (⟨2, ![35, 10]⟩ : Shape).Idx → EReal)
    (b1 : (⟨1, ![10]⟩ : Shape).Idx → EReal) (W2 : (⟨2, ![10, 10]⟩ : Shape).Idx → EReal)
    (b2 : (⟨1, ![10]⟩ : Shape).Idx → EReal) : (⟨2, ![2000000, 10]⟩ : Shape).Idx → EReal :=
  fun i => outAt xs xt ea ug W1 b1 W2 b2 (i 0) (i 1)

theorem out_ix2 (xs : (⟨2, ![2000000, 10]⟩ : Shape).Idx → EReal) (xt : (⟨2, ![2000000, 5]⟩ : Shape).Idx → EReal)
    (ea ug : (⟨2, ![2000000, 10]⟩ : Shape).Idx → EReal) (W1 : (⟨2, ![35, 10]⟩ : Shape).Idx → EReal)
    (b1 : (⟨1, ![10]⟩ : Shape).Idx → EReal) (W2 : (⟨2, ![10, 10]⟩ : Shape).Idx → EReal)
    (b2 : (⟨1, ![10]⟩ : Shape).Idx → EReal) (e : Fin 2000000) (j : Fin 10) :
    out xs xt ea ug W1 b1 W2 b2 (ix2 e j) = outAt xs xt ea ug W1 b1 W2 b2 e j := rfl

/-- A comparison bit decided: the rectifier as the kernel spells it (`h > 0`). -/
theorem select_ogt (h : EReal) : Scalar.select (Ideal.cmp .ogt h 0) h (slope * h) = act h := by
  unfold act Scalar.select Ideal.cmp
  by_cases h0 : (0 : EReal) < h <;> simp [h0]

/-- … and as the reference spells it (`h ≥ 0`). -/
theorem select_oge (h : EReal) : Scalar.select (Ideal.cmp .oge h 0) h (slope * h) = act h := by
  rw [← act_of_le]
  unfold Scalar.select Ideal.cmp
  by_cases h0 : (0 : EReal) ≤ h <;> simp [h0]

end Cert.EdgeMlp

end
-- ==== Proof.KerPay.lean ====
/-
  What the kernel's body stores for one block of 4000 edges, read at one entry.

  The body multiplies the block of source rows, of target rows, of edge attributes and of graph rows each by its own
  band of the first-layer weight (four products into zero accumulators), adds them and the bias row, applies the leaky
  rectifier, multiplies by the second-layer weight and adds its bias row.  On the extended reals every change of float
  format in between is the identity, and a product into a zero accumulator is the plain sum over the contracted axis.
-/
import proofs.«419490_j74663711473943_1_alg».proof.Proof.Gen.KernelIdeal.Skeleton
import proofs.«419490_j74663711473943_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.EdgeMlp.Ker

open Cert.KernelIdeal Cert.KernelIdeal.Gen Idealize.ShloMosaic Idealize.ShloMosaic.ValueIdx

/-! ## The two contractions at an index -/

theorem lhs_d10_0 (i : S4000x10.Idx) (q : dot_S4000x10_S10x10_S4000x10_1_0_0_1_n_n.contr.Idx) : (dot_S4000x10_S10x10_S4000x10_1_0_0_1_n_n.lhsIdx i q 0).val = (i 0).val := by
  unfold DotDims.lhsIdx
  rw [dif_neg (show ¬(0 : Fin S4000x10.rank) ∈ dot_S4000x10_S10x10_S4000x10_1_0_0_1_n_n.lhsBatch by decide), dif_pos (show (0 : Fin S4000x10.rank) ∈ dot_S4000x10_S10x10_S4000x10_1_0_0_1_n_n.lhsNonContracting by decide)]
  rfl
theorem lhs_d10_1 (i : S4000x10.Idx) (q : dot_S4000x10_S10x10_S4000x10_1_0_0_1_n_n.contr.Idx) : (dot_S4000x10_S10x10_S4000x10_1_0_0_1_n_n.lhsIdx i q 1).val = (q ⟨0, by decide⟩).val :=
  dot_S4000x10_S10x10_S4000x10_1_0_0_1_n_n.lhsIdx_val_of_single rfl i q
theorem rhs_d10_0 (i : S4000x10.Idx) (q : dot_S4000x10_S10x10_S4000x10_1_0_0_1_n_n.contr.Idx) : (dot_S4000x10_S10x10_S4000x10_1_0_0_1_n_n.rhsIdx i q 0).val = (q ⟨0, by decide⟩).val :=
  dot_S4000x10_S10x10_S4000x10_1_0_0_1_n_n.rhsIdx_val_of_single rfl i q
theorem rhs_d10_1 (i : S4000x10.Idx) (q : dot_S4000x10_S10x10_S4000x10_1_0_0_1_n_n.contr.Idx) : (dot_S4000x10_S10x10_S4000x10_1_0_0_1_n_n.rhsIdx i q 1).val = (i 1).val := by
  unfold DotDims.rhsIdx
  rw [dif_neg (show ¬(1 : Fin S10x10.rank) ∈ dot_S4000x10_S10x10_S4000x10_1_0_0_1_n_n.rhsBatch by decide), dif_pos (show (1 : Fin S10x10.rank) ∈ dot_S4000x10_S10x10_S4000x10_1_0_0_1_n_n.rhsNonContracting by decide)]
  rfl

/-- A block of rows times a weight matrix, into a zero accumulator, at row `p` and column `q`: the inner product of
    the block's row `p` with the matrix's column `q` (the contraction has one axis, of extent 10). -/
theorem mm_d10_apply (l : FVec Ideal S4000x10 .bf16) (r : FVec Ideal S10x10 .bf16) (p : Fin 4000) (q : Fin 10) :
    matmul (F := Ideal) dot_S4000x10_S10x10_S4000x10_1_0_0_1_n_n none l r (constant (F := Ideal) S4000x10 .f32 0x00000000#32) (ix2 p q)
      = ∑ k : Fin 10, l (ix2 p k) * r (ix2 k q) := by
  simp only [matmul]
  rw [Ideal.matmul_constant_zero_apply, ← Equiv.sum_comp (contrEquiv1 dot_S4000x10_S10x10_S4000x10_1_0_0_1_n_n 10 rfl rfl).symm]
  refine Finset.sum_congr rfl fun k _ => ?_
  have hk := contrEquiv1_symm_val dot_S4000x10_S10x10_S4000x10_1_0_0_1_n_n 10 rfl rfl k
  have el : dot_S4000x10_S10x10_S4000x10_1_0_0_1_n_n.lhsIdx (ix2 p q) ((contrEquiv1 dot_S4000x10_S10x10_S4000x10_1_0_0_1_n_n 10 rfl rfl).symm k) = ix2 p k := funext fun a => Fin.ext (by
    match a with
    | ⟨0, _⟩ => exact lhs_d10_0 _ _
    | ⟨1, _⟩ => exact (lhs_d10_1 _ _).trans hk)
  have er : dot_S4000x10_S10x10_S4000x10_1_0_0_1_n_n.rhsIdx (ix2 p q) ((contrEquiv1 dot_S4000x10_S10x10_S4000x10_1_0_0_1_n_n 10 rfl rfl).symm k) = ix2 k q := funext fun a => Fin.ext (by
    match a with
    | ⟨0, _⟩ => exact (rhs_d10_0 _ _).trans hk
    | ⟨1, _⟩ => exact rhs_d10_1 _ _)
  rw [el, er]

theorem lhs_d5_0 (i : S4000x10.Idx) (q : dot_S4000x5_S5x10_S4000x10_1_0_0_1_n_n.contr.Idx) : (dot_S4000x5_S5x10_S4000x10_1_0_0_1_n_n.lhsIdx i q 0).val = (i 0).val := by
  unfold DotDims.lhsIdx
  rw [dif_neg (show ¬(0 : Fin S4000x5.rank) ∈ dot_S4000x5_S5x10_S4000x10_1_0_0_1_n_n.lhsBatch by decide), dif_pos (show (0 : Fin S4000x5.rank) ∈ dot_S4000x5_S5x10_S4000x10_1_0_0_1_n_n.lhsNonContracting by decide)]
  rfl
theorem lhs_d5_1 (i : S4000x10.Idx) (q : dot_S4000x5_S5x10_S4000x10_1_0_0_1_n_n.contr.Idx) : (dot_S4000x5_S5x10_S4000x10_1_0_0_1_n_n.lhsIdx i q 1).val = (q ⟨0, by decide⟩).val :=
  dot_S4000x5_S5x10_S4000x10_1_0_0_1_n_n.lhsIdx_val_of_single rfl i q
theorem rhs_d5_0 (i : S4000x10.Idx) (q : dot_S4000x5_S5x10_S4000x10_1_0_0_1_n_n.contr.Idx) : (dot_S4000x5_S5x10_S4000x10_1_0_0_1_n_n.rhsIdx i q 0).val = (q ⟨0, by decide⟩).val :=
  dot_S4000x5_S5x10_S4000x10_1_0_0_1_n_n.rhsIdx_val_of_single rfl i q
theorem rhs_d5_1 (i : S4000x10.Idx) (q : dot_S4000x5_S5x10_S4000x10_1_0_0_1_n_n.contr.Idx) : (dot_S4000x5_S5x10_S4000x10_1_0_0_1_n_n.rhsIdx i q 1).val = (i 1).val := by
  unfold DotDims.rhsIdx
  rw [dif_neg (show ¬(1 : Fin S5x10.rank) ∈ dot_S4000x5_S5x10_S4000x10_1_0_0_1_n_n.rhsBatch by decide), dif_pos (show (1 : Fin S5x10.rank) ∈ dot_S4000x5_S5x10_S4000x10_1_0_0_1_n_n.rhsNonContracting by decide)]
  rfl

/-- A block of rows times a weight matrix, into a zero accumulator, at row `p` and column `q`: the inner product of
    the block's row `p` with the matrix's column `q` (the contraction has one axis, of extent 5). -/
theorem mm_d5_apply (l : FVec Ideal S4000x5 .bf16) (r : FVec Ideal S5x10 .bf16) (p : Fin 4000) (q : Fin 10) :
    matmul (F := Ideal) dot_S4000x5_S5x10_S4000x10_1_0_0_1_n_n none l r (constant (F := Ideal) S4000x10 .f32 0x00000000#32) (ix2 p q)
      = ∑ k : Fin 5, l (ix2 p k) * r (ix2 k q) := by
  simp only [matmul]
  rw [Ideal.matmul_constant_zero_apply, ← Equiv.sum_comp (contrEquiv1 dot_S4000x5_S5x10_S4000x10_1_0_0_1_n_n 5 rfl rfl).symm]
  refine Finset.sum_congr rfl fun k _ => ?_
  have hk := contrEquiv1_symm_val dot_S4000x5_S5x10_S4000x10_1_0_0_1_n_n 5 rfl rfl k
  have el : dot_S4000x5_S5x10_S4000x10_1_0_0_1_n_n.lhsIdx (ix2 p q) ((contrEquiv1 dot_S4000x5_S5x10_S4000x10_1_0_0_1_n_n 5 rfl rfl).symm k) = ix2 p k := funext fun a => Fin.ext (by
    match a with
    | ⟨0, _⟩ => exact lhs_d5_0 _ _
    | ⟨1, _⟩ => exact (lhs_d5_1 _ _).trans hk)
  have er : dot_S4000x5_S5x10_S4000x10_1_0_0_1_n_n.rhsIdx (ix2 p q) ((contrEquiv1 dot_S4000x5_S5x10_S4000x10_1_0_0_1_n_n 5 rfl rfl).symm k) = ix2 k q := funext fun a => Fin.ext (by
    match a with
    | ⟨0, _⟩ => exact (rhs_d5_0 _ _).trans hk
    | ⟨1, _⟩ => exact rhs_d5_1 _ _)
  rw [el, er]

/-! ## The body's two payloads at an index -/

/-- Row `p` of a block through the first layer, before the rectifier, at hidden unit `j`. -/
def blkHidden (x0 : Vec Ideal S4000x10 .f32) (x1 : Vec Ideal S4000x5 .f32) (x2 x3 : Vec Ideal S4000x10 .f32)
    (x4 : Vec Ideal S10x10 .f32) (x5 : Vec Ideal S5x10 .f32) (x6 x7 : Vec Ideal S10x10 .f32) (x8 : Vec Ideal S1x10 .f32)
    (p : Fin 4000) (j : Fin 10) : EReal :=
  (∑ k : Fin 10, x0 (ix2 p k) * x4 (ix2 k j)) + (∑ k : Fin 5, x1 (ix2 p k) * x5 (ix2 k j))
    + (∑ k : Fin 10, x2 (ix2 p k) * x6 (ix2 k j)) + (∑ k : Fin 10, x3 (ix2 p k) * x7 (ix2 k j))
    + x8 (ix2 (0 : Fin 1) j)

theorem pay2_apply (x0 : Vec Ideal S4000x10 .f32) (x1 : Vec Ideal S4000x5 .f32) (x2 x3 : Vec Ideal S4000x10 .f32)
    (x4 : Vec Ideal S10x10 .f32) (x5 : Vec Ideal S5x10 .f32) (x6 x7 : Vec Ideal S10x10 .f32) (x8 : Vec Ideal S1x10 .f32)
    (p : Fin 4000) (j : Fin 10) :
    k0_pay2 (F := Ideal) x0 x1 x2 x3 x4 x5 x6 x7 x8 (ix2 p j) = blkHidden x0 x1 x2 x3 x4 x5 x6 x7 x8 p j := by
  unfold k0_pay2 blkHidden
  rw [addf_apply, addf_apply, addf_apply, addf_apply, mm_d10_apply, mm_d5_apply, mm_d10_apply, mm_d10_apply,
    broadcastTo_1b_ab_apply]
  simp only [truncf_apply, shapeCast_self]

/-- The rectifier as the body spells it — a select on `h > 0` between `h` and the slope times `h` — is `act`. -/
theorem sel_act (h : EReal) :
    Scalar.select (FloatOps.cmpf (F := Ideal) (φ := .f32) .ogt h (Scalar.ofBits (F := Ideal) .f32 0x00000000#32)) h
      ((Scalar.ofBits (F := Ideal) .f32 0x3DCCCCCD#32 : EReal) * h) = act h := by
  show Scalar.select (Ideal.cmp .ogt h (Ideal.ofBits .f32 0x00000000#32)) h (slope * h) = _
  rw [Ideal.ofBits_zero_f32]
  exact select_ogt h

/-- One entry of what the body stores: row `p` of the block through both layers, at output feature `q`. -/
theorem pay1_apply (x0 : Vec Ideal S4000x10 .f32) (x1 : Vec Ideal S4000x5 .f32) (x2 x3 : Vec Ideal S4000x10 .f32)
    (x4 : Vec Ideal S10x10 .f32) (x5 : Vec Ideal S5x10 .f32) (x6 x7 : Vec Ideal S10x10 .f32) (x8 : Vec Ideal S1x10 .f32)
    (x9 : Vec Ideal S10x10 .f32) (x10 : Vec Ideal S1x10 .f32) (p : Fin 4000) (q : Fin 10) :
    k0_pay1 (F := Ideal) (k0_pay2 x0 x1 x2 x3 x4 x5 x6 x7 x8) (k0_pay3 x0 x1 x2 x3 x4 x5 x6 x7 x8) x9 x10 (ix2 p q)
      = (∑ k : Fin 10, act (blkHidden x0 x1 x2 x3 x4 x5 x6 x7 x8 p k) * x9 (ix2 k q)) + x10 (ix2 (0 : Fin 1) q) := by
  unfold k0_pay1
  rw [addf_apply, mm_d10_apply, broadcastTo_1b_ab_apply, shapeCast_self]
  refine congrArg₂ (· + ·) (Finset.sum_congr rfl fun k _ => ?_) rfl
  rw [truncf_apply, truncf_apply, select_apply, mulf_apply, broadcast_apply, pay2_apply]
  unfold k0_pay3
  rw [cmpf_apply, broadcast_apply, pay2_apply]
  exact congrArg (· * x9 (ix2 k q)) (sel_act _)

end Cert.EdgeMlp.Ker

end
-- ==== Proof.KerArr.lean ====
/-
  The kernel's result as a function of whole arrays, with the first-layer weight already cut into its four bands
  (as the kernel's program passes them to the pipeline) and the two biases as one-row matrices.
-/
import proofs.«419490_j74663711473943_1_alg».proof.Proof.Gen.KernelIdeal
import proofs.«419490_j74663711473943_1_alg».proof.Proof.Spec
import Idealize.ShloMosaic.Lib.ValueIdx

noncomputable section

open scoped BigOperators

namespace Cert.EdgeMlp.Ker

open Cert.KernelIdeal Idealize.ShloMosaic Idealize.ShloMosaic.ValueIdx

/-- Edge `e` through the first layer, before the rectifier, at hidden unit `j`: the four per-edge rows against the
    four bands of the first-layer weight (here as four separate matrices) and the bias row. -/
def arrHidden (xs : S2000000x10.Idx → EReal) (xt : S2000000x5.Idx → EReal) (ea ug : S2000000x10.Idx → EReal)
    (wa : S10x10.Idx → EReal) (wb : S5x10.Idx → EReal) (wc wd : S10x10.Idx → EReal) (br : S1x10.Idx → EReal)
    (e : Fin 2000000) (j : Fin 10) : EReal :=
  (∑ k : Fin 10, xs (ix2 e k) * wa (ix2 k j)) + (∑ k : Fin 5, xt (ix2 e k) * wb (ix2 k j))
    + (∑ k : Fin 10, ea (ix2 e k) * wc (ix2 k j)) + (∑ k : Fin 10, ug (ix2 e k) * wd (ix2 k j))
    + br (ix2 (0 : Fin 1) j)

/-- Edge `e` through both layers, at output feature `q`. -/
def arrOutAt (xs : S2000000x10.Idx → EReal) (xt : S2000000x5.Idx → EReal) (ea ug : S2000000x10.Idx → EReal)
    (wa : S10x10.Idx → EReal) (wb : S5x10.Idx → EReal) (wc wd : S10x10.Idx → EReal) (br : S1x10.Idx → EReal)
    (w2 : S10x10.Idx → EReal) (cr : S1x10.Idx → EReal) (e : Fin 2000000) (q : Fin 10) : EReal :=
  (∑ k : Fin 10, act (arrHidden xs xt ea ug wa wb wc wd br e k) * w2 (ix2 k q)) + cr (ix2 (0 : Fin 1) q)

end Cert.EdgeMlp.Ker

end
-- ==== Proof.KerBlocks.lean ====
/-
  From blocks to the array.

  The pipeline cuts the 2 000 000 edges into 500 blocks of 4000 consecutive rows; at grid point `t` the body sees rows
  `4000 t … 4000 t + 3999` of each of the four per-edge arrays and the whole of every weight and bias array, and writes
  block `t` of the result.  So what point `t` writes back is block `t` of ONE function of the whole arrays — each
  edge's row through the two layers —, the 500 blocks cover every row, and the result array is that function.
-/
import proofs.«419490_j74663711473943_1_alg».proof.Proof.Gen.KernelIdeal.Value
import proofs.«419490_j74663711473943_1_alg».proof.Proof.KerPay
import proofs.«419490_j74663711473943_1_alg».proof.Proof.KerArr
import Idealize.ShloMosaic.Lib.Pipeline.Value

noncomputable section

open scoped BigOperators

namespace Cert.EdgeMlp.Ker

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

/-- The result array as one function of the arrays the region finds. -/
def G (c : Dev nD) : S2000000x10.Idx → EReal := fun i =>
  arrOutAt (V m c main_v4) (V m c main_v5) (V m c main_arg3) (V m c main_v6) (V m c main_v7) (V m c main_v8)
    (V m c main_v9) (V m c main_v10) (V m c main_v11) (V m c main_arg8) (V m c main_v12) (i 0) (i 1)

theorem hz : (![0, 0] : Fin 2 → Nat) = fun _ => 0 := funext fun a => by fin_cases a <;> rfl

/-! ## Where each window's block sits -/

/-- The printed index maps at a grid point: the four per-edge windows and the result window sit at block `t` of the
    rows, every weight and bias window at the one block there is. -/
structure IdxFacts (t : Fin cfg0.N) : Prop where
  i00 : win0_0.index t 0 = t.val
  i01 : win0_0.index t 1 = 0
  i10 : win0_1.index t 0 = t.val
  i11 : win0_1.index t 1 = 0
  i20 : win0_2.index t 0 = t.val
  i21 : win0_2.index t 1 = 0
  i30 : win0_3.index t 0 = t.val
  i31 : win0_3.index t 1 = 0
  i40 : win0_4.index t 0 = 0
  i41 : win0_4.index t 1 = 0
  i50 : win0_5.index t 0 = 0
  i51 : win0_5.index t 1 = 0
  i60 : win0_6.index t 0 = 0
  i61 : win0_6.index t 1 = 0
  i70 : win0_7.index t 0 = 0
  i71 : win0_7.index t 1 = 0
  i80 : win0_8.index t 0 = 0
  i81 : win0_8.index t 1 = 0
  i90 : win0_9.index t 0 = 0
  i91 : win0_9.index t 1 = 0
  i100 : win0_10.index t 0 = 0
  i101 : win0_10.index t 1 = 0
  o0 : win0_11.index t 0 = t.val
  o1 : win0_11.index t 1 = 0

instance (t : Fin cfg0.N) : Decidable (IdxFacts t) :=
  decidable_of_iff (win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0 ∧ win0_4.index t 0 = 0 ∧ win0_4.index t 1 = 0 ∧ win0_5.index t 0 = 0 ∧ win0_5.index t 1 = 0 ∧ win0_6.index t 0 = 0 ∧ win0_6.index t 1 = 0 ∧ win0_7.index t 0 = 0 ∧ win0_7.index t 1 = 0 ∧ win0_8.index t 0 = 0 ∧ win0_8.index t 1 = 0 ∧ win0_9.index t 0 = 0 ∧ win0_9.index t 1 = 0 ∧ win0_10.index t 0 = 0 ∧ win0_10.index t 1 = 0 ∧ win0_11.index t 0 = t.val ∧ win0_11.index t 1 = 0)
    ⟨fun ⟨a0, b0, a1, b1, a2, b2, a3, b3, a4, b4, a5, b5, a6, b6, a7, b7, a8, b8, a9, b9, a10, b10, ao, bo⟩ => ⟨a0, b0, a1, b1, a2, b2, a3, b3, a4, b4, a5, b5, a6, b6, a7, b7, a8, b8, a9, b9, a10, b10, ao, bo⟩,
     fun h => ⟨h.i00, h.i01, h.i10, h.i11, h.i20, h.i21, h.i30, h.i31, h.i40, h.i41, h.i50, h.i51, h.i60, h.i61, h.i70, h.i71, h.i80, h.i81, h.i90, h.i91, h.i100, h.i101, h.o0, h.o1⟩⟩

/-- Decided over the 500 grid points. -/
theorem idx_facts : ∀ t : Fin cfg0.N, IdxFacts t := (by decide +kernel : ∀ t : Fin grid0.N, IdxFacts t)

/-- Row `p` of block `t` is row `4000 t + p` of the array. -/
def row (t : Fin cfg0.N) (p : Fin 4000) : Fin 2000000 :=
  ⟨4000 * t.val + p.val, by have h : t.val < 500 := lt_of_lt_of_eq t.isLt N_0; have := p.isLt; omega⟩

/-! ## The blocks the body sees, read at an entry -/

/-- Window 0's block at point `t`, read off ANY array of its shape. -/
theorem read0 (A : S2000000x10.Idx → EReal) (t : Fin cfg0.N) (p : Fin 4000) (k : Fin 10) :
    ((cfg0.win 0).blk t).view.read (Elt Ideal) A (ix2 p k : S4000x10.Idx) = A (ix2 (row t p) k) := by
  rw [View.read_apply]
  refine congrArg A (funext fun a => Fin.ext ?_)
  match a with
  | ⟨0, _⟩ => show win0_0.index t 0 * 4000 + 1 * p.val = 4000 * t.val + p.val; rw [(idx_facts t).i00]; omega
  | ⟨1, _⟩ => show win0_0.index t 1 * 10 + 1 * k.val = k.val; rw [(idx_facts t).i01]; omega

abbrev b0 (c : Dev nD) (t : Fin cfg0.N) : Vec Ideal S4000x10 .f32 := iblk m c 0 t

theorem b0_apply (c : Dev nD) (t : Fin cfg0.N) (p : Fin 4000) (k : Fin 10) :
    b0 m c t (ix2 p k) = (V m c main_v4 : S2000000x10.Idx → EReal) (ix2 (row t p) k) :=
  read0 (V m c main_v4) t p k

/-- Window 1's block at point `t`, read off ANY array of its shape. -/
theorem read1 (A : S2000000x5.Idx → EReal) (t : Fin cfg0.N) (p : Fin 4000) (k : Fin 5) :
    ((cfg0.win 1).blk t).view.read (Elt Ideal) A (ix2 p k : S4000x5.Idx) = A (ix2 (row t p) k) := by
  rw [View.read_apply]
  refine congrArg A (funext fun a => Fin.ext ?_)
  match a with
  | ⟨0, _⟩ => show win0_1.index t 0 * 4000 + 1 * p.val = 4000 * t.val + p.val; rw [(idx_facts t).i10]; omega
  | ⟨1, _⟩ => show win0_1.index t 1 * 5 + 1 * k.val = k.val; rw [(idx_facts t).i11]; omega

abbrev b1 (c : Dev nD) (t : Fin cfg0.N) : Vec Ideal S4000x5 .f32 := iblk m c 1 t

theorem b1_apply (c : Dev nD) (t : Fin cfg0.N) (p : Fin 4000) (k : Fin 5) :
    b1 m c t (ix2 p k) = (V m c main_v5 : S2000000x5.Idx → EReal) (ix2 (row t p) k) :=
  read1 (V m c main_v5) t p k

/-- Window 2's block at point `t`, read off ANY array of its shape. -/
theorem read2 (A : S2000000x10.Idx → EReal) (t : Fin cfg0.N) (p : Fin 4000) (k : Fin 10) :
    ((cfg0.win 2).blk t).view.read (Elt Ideal) A (ix2 p k : S4000x10.Idx) = A (ix2 (row t p) k) := by
  rw [View.read_apply]
  refine congrArg A (funext fun a => Fin.ext ?_)
  match a with
  | ⟨0, _⟩ => show win0_2.index t 0 * 4000 + 1 * p.val = 4000 * t.val + p.val; rw [(idx_facts t).i20]; omega
  | ⟨1, _⟩ => show win0_2.index t 1 * 10 + 1 * k.val = k.val; rw [(idx_facts t).i21]; omega

abbrev b2 (c : Dev nD) (t : Fin cfg0.N) : Vec Ideal S4000x10 .f32 := iblk m c 2 t

theorem b2_apply (c : Dev nD) (t : Fin cfg0.N) (p : Fin 4000) (k : Fin 10) :
    b2 m c t (ix2 p k) = (V m c main_arg3 : S2000000x10.Idx → EReal) (ix2 (row t p) k) :=
  read2 (V m c main_arg3) t p k

/-- Window 3's block at point `t`, read off ANY array of its shape. -/
theorem read3 (A : S2000000x10.Idx → EReal) (t : Fin cfg0.N) (p : Fin 4000) (k : Fin 10) :
    ((cfg0.win 3).blk t).view.read (Elt Ideal) A (ix2 p k : S4000x10.Idx) = A (ix2 (row t p) k) := by
  rw [View.read_apply]
  refine congrArg A (funext fun a => Fin.ext ?_)
  match a with
  | ⟨0, _⟩ => show win0_3.index t 0 * 4000 + 1 * p.val = 4000 * t.val + p.val; rw [(idx_facts t).i30]; omega
  | ⟨1, _⟩ => show win0_3.index t 1 * 10 + 1 * k.val = k.val; rw [(idx_facts t).i31]; omega

abbrev b3 (c : Dev nD) (t : Fin cfg0.N) : Vec Ideal S4000x10 .f32 := iblk m c 3 t

theorem b3_apply (c : Dev nD) (t : Fin cfg0.N) (p : Fin 4000) (k : Fin 10) :
    b3 m c t (ix2 p k) = (V m c main_v6 : S2000000x10.Idx → EReal) (ix2 (row t p) k) :=
  read3 (V m c main_v6) t p k

/-- Window 4's block at point `t`, read off ANY array of its shape. -/
theorem read4 (A : S10x10.Idx → EReal) (t : Fin cfg0.N) (p : Fin 10) (k : Fin 10) :
    ((cfg0.win 4).blk t).view.read (Elt Ideal) A (ix2 p k : S10x10.Idx) = A (ix2 p k) := by
  rw [View.read_apply]
  refine congrArg A (funext fun a => Fin.ext ?_)
  match a with
  | ⟨0, _⟩ => show win0_4.index t 0 * 10 + 1 * p.val = p.val; rw [(idx_facts t).i40]; omega
  | ⟨1, _⟩ => show win0_4.index t 1 * 10 + 1 * k.val = k.val; rw [(idx_facts t).i41]; omega

abbrev b4 (c : Dev nD) (t : Fin cfg0.N) : Vec Ideal S10x10 .f32 := iblk m c 4 t

theorem b4_apply (c : Dev nD) (t : Fin cfg0.N) (p : Fin 10) (k : Fin 10) :
    b4 m c t (ix2 p k) = (V m c main_v7 : S10x10.Idx → EReal) (ix2 p k) :=
  read4 (V m c main_v7) t p k

/-- Window 5's block at point `t`, read off ANY array of its shape. -/
theorem read5 (A : S5x10.Idx → EReal) (t : Fin cfg0.N) (p : Fin 5) (k : Fin 10) :
    ((cfg0.win 5).blk t).view.read (Elt Ideal) A (ix2 p k : S5x10.Idx) = A (ix2 p k) := by
  rw [View.read_apply]
  refine congrArg A (funext fun a => Fin.ext ?_)
  match a with
  | ⟨0, _⟩ => show win0_5.index t 0 * 5 + 1 * p.val = p.val; rw [(idx_facts t).i50]; omega
  | ⟨1, _⟩ => show win0_5.index t 1 * 10 + 1 * k.val = k.val; rw [(idx_facts t).i51]; omega

abbrev b5 (c : Dev nD) (t : Fin cfg0.N) : Vec Ideal S5x10 .f32 := iblk m c 5 t

theorem b5_apply (c : Dev nD) (t : Fin cfg0.N) (p : Fin 5) (k : Fin 10) :
    b5 m c t (ix2 p k) = (V m c main_v8 : S5x10.Idx → EReal) (ix2 p k) :=
  read5 (V m c main_v8) t p k

/-- Window 6's block at point `t`, read off ANY array of its shape. -/
theorem read6 (A : S10x10.Idx → EReal) (t : Fin cfg0.N) (p : Fin 10) (k : Fin 10) :
    ((cfg0.win 6).blk t).view.read (Elt Ideal) A (ix2 p k : S10x10.Idx) = A (ix2 p k) := by
  rw [View.read_apply]
  refine congrArg A (funext fun a => Fin.ext ?_)
  match a with
  | ⟨0, _⟩ => show win0_6.index t 0 * 10 + 1 * p.val = p.val; rw [(idx_facts t).i60]; omega
  | ⟨1, _⟩ => show win0_6.index t 1 * 10 + 1 * k.val = k.val; rw [(idx_facts t).i61]; omega

abbrev b6 (c : Dev nD) (t : Fin cfg0.N) : Vec Ideal S10x10 .f32 := iblk m c 6 t

theorem b6_apply (c : Dev nD) (t : Fin cfg0.N) (p : Fin 10) (k : Fin 10) :
    b6 m c t (ix2 p k) = (V m c main_v9 : S10x10.Idx → EReal) (ix2 p k) :=
  read6 (V m c main_v9) t p k

/-- Window 7's block at point `t`, read off ANY array of its shape. -/
theorem read7 (A : S10x10.Idx → EReal) (t : Fin cfg0.N) (p : Fin 10) (k : Fin 10) :
    ((cfg0.win 7).blk t).view.read (Elt Ideal) A (ix2 p k : S10x10.Idx) = A (ix2 p k) := by
  rw [View.read_apply]
  refine congrArg A (funext fun a => Fin.ext ?_)
  match a with
  | ⟨0, _⟩ => show win0_7.index t 0 * 10 + 1 * p.val = p.val; rw [(idx_facts t).i70]; omega
  | ⟨1, _⟩ => show win0_7.index t 1 * 10 + 1 * k.val = k.val; rw [(idx_facts t).i71]; omega

abbrev b7 (c : Dev nD) (t : Fin cfg0.N) : Vec Ideal S10x10 .f32 := iblk m c 7 t

theorem b7_apply (c : Dev nD) (t : Fin cfg0.N) (p : Fin 10) (k : Fin 10) :
    b7 m c t (ix2 p k) = (V m c main_v10 : S10x10.Idx → EReal) (ix2 p k) :=
  read7 (V m c main_v10) t p k

/-- Window 8's block at point `t`, read off ANY array of its shape. -/
theorem read8 (A : S1x10.Idx → EReal) (t : Fin cfg0.N) (p : Fin 1) (k : Fin 10) :
    ((cfg0.win 8).blk t).view.read (Elt Ideal) A (ix2 p k : S1x10.Idx) = A (ix2 p k) := by
  rw [View.read_apply]
  refine congrArg A (funext fun a => Fin.ext ?_)
  match a with
  | ⟨0, _⟩ => show win0_8.index t 0 * 1 + 1 * p.val = p.val; rw [(idx_facts t).i80]; omega
  | ⟨1, _⟩ => show win0_8.index t 1 * 10 + 1 * k.val = k.val; rw [(idx_facts t).i81]; omega

abbrev b8 (c : Dev nD) (t : Fin cfg0.N) : Vec Ideal S1x10 .f32 := iblk m c 8 t

theorem b8_apply (c : Dev nD) (t : Fin cfg0.N) (p : Fin 1) (k : Fin 10) :
    b8 m c t (ix2 p k) = (V m c main_v11 : S1x10.Idx → EReal) (ix2 p k) :=
  read8 (V m c main_v11) t p k

/-- Window 9's block at point `t`, read off ANY array of its shape. -/
theorem read9 (A : S10x10.Idx → EReal) (t : Fin cfg0.N) (p : Fin 10) (k : Fin 10) :
    ((cfg0.win 9).blk t).view.read (Elt Ideal) A (ix2 p k : S10x10.Idx) = A (ix2 p k) := by
  rw [View.read_apply]
  refine congrArg A (funext fun a => Fin.ext ?_)
  match a with
  | ⟨0, _⟩ => show win0_9.index t 0 * 10 + 1 * p.val = p.val; rw [(idx_facts t).i90]; omega
  | ⟨1, _⟩ => show win0_9.index t 1 * 10 + 1 * k.val = k.val; rw [(idx_facts t).i91]; omega

abbrev b9 (c : Dev nD) (t : Fin cfg0.N) : Vec Ideal S10x10 .f32 := iblk m c 9 t

theorem b9_apply (c : Dev nD) (t : Fin cfg0.N) (p : Fin 10) (k : Fin 10) :
    b9 m c t (ix2 p k) = (V m c main_arg8 : S10x10.Idx → EReal) (ix2 p k) :=
  read9 (V m c main_arg8) t p k

/-- Window 10's block at point `t`, read off ANY array of its shape. -/
theorem read10 (A : S1x10.Idx → EReal) (t : Fin cfg0.N) (p : Fin 1) (k : Fin 10) :
    ((cfg0.win 10).blk t).view.read (Elt Ideal) A (ix2 p k : S1x10.Idx) = A (ix2 p k) := by
  rw [View.read_apply]
  refine congrArg A (funext fun a => Fin.ext ?_)
  match a with
  | ⟨0, _⟩ => show win0_10.index t 0 * 1 + 1 * p.val = p.val; rw [(idx_facts t).i100]; omega
  | ⟨1, _⟩ => show win0_10.index t 1 * 10 + 1 * k.val = k.val; rw [(idx_facts t).i101]; omega

abbrev b10 (c : Dev nD) (t : Fin cfg0.N) : Vec Ideal S1x10 .f32 := iblk m c 10 t

theorem b10_apply (c : Dev nD) (t : Fin cfg0.N) (p : Fin 1) (k : Fin 10) :
    b10 m c t (ix2 p k) = (V m c main_v12 : S1x10.Idx → EReal) (ix2 p k) :=
  read10 (V m c main_v12) t p k

/-- Entry `(p, q)` of block `t` of the result array is entry `(4000 t + p, q)`. -/
theorem emb11 (t : Fin cfg0.N) (p : Fin 4000) (q : Fin 10) :
    ((cfg0.win 11).blk t).view.emb (ix2 p q : S4000x10.Idx) = (ix2 (row t p) q : S2000000x10.Idx) := by
  funext a
  apply Fin.ext
  match a with
  | ⟨0, _⟩ => show win0_11.index t 0 * 4000 + 1 * p.val = 4000 * t.val + p.val; rw [(idx_facts t).o0]; omega
  | ⟨1, _⟩ => show win0_11.index t 1 * 10 + 1 * q.val = q.val; rw [(idx_facts t).o1]; omega

/-! ## What point `t` writes back -/

/-- At a point of a block, what the body stores is the whole-array function at the corresponding row. -/
theorem body_at (c : Dev nD) (t : Fin cfg0.N) (p : Fin 4000) (q : Fin 10) :
    k0_pay1 (F := Ideal) (k0_pay2 (b0 m c t) (b1 m c t) (b2 m c t) (b3 m c t) (b4 m c t) (b5 m c t) (b6 m c t) (b7 m c t) (b8 m c t))
        (k0_pay3 (b0 m c t) (b1 m c t) (b2 m c t) (b3 m c t) (b4 m c t) (b5 m c t) (b6 m c t) (b7 m c t) (b8 m c t))
        (b9 m c t) (b10 m c t) (ix2 p q)
      = G m c (ix2 (row t p) q) := by
  rw [pay1_apply]
  show _ = arrOutAt _ _ _ _ _ _ _ _ _ _ _ (row t p) q
  unfold arrOutAt blkHidden arrHidden
  simp only [b0_apply, b1_apply, b2_apply, b3_apply, b4_apply, b5_apply, b6_apply, b7_apply, b8_apply, b9_apply, b10_apply]

/-- The same at any entry `y` of the block. -/
theorem body_at_idx (c : Dev nD) (t : Fin cfg0.N) (y : S4000x10.Idx) :
    k0_pay1 (F := Ideal) (k0_pay2 (b0 m c t) (b1 m c t) (b2 m c t) (b3 m c t) (b4 m c t) (b5 m c t) (b6 m c t) (b7 m c t) (b8 m c t))
        (k0_pay3 (b0 m c t) (b1 m c t) (b2 m c t) (b3 m c t) (b4 m c t) (b5 m c t) (b6 m c t) (b7 m c t) (b8 m c t))
        (b9 m c t) (b10 m c t) y
      = G m c (((cfg0.win 11).blk t).view.emb y) := by
  obtain ⟨p, q, rfl⟩ : ∃ (p : Fin 4000) (q : Fin 10), y = ix2 p q := ⟨y 0, y 1, eq_ix2 y⟩
  rw [emb11]
  exact body_at m c t p q

/-- The same, with the blocks spelt as the pipeline's proof data spells them. -/
theorem body_at_blk (c : Dev nD) (t : Fin cfg0.N) (y : S4000x10.Idx) :
    k0_pay1 (F := Ideal) (k0_pay2 (iblk m c 0 t) (iblk m c 1 t) (iblk m c 2 t) (iblk m c 3 t) (iblk m c 4 t) (iblk m c 5 t) (iblk m c 6 t) (iblk m c 7 t) (iblk m c 8 t))
        (k0_pay3 (iblk m c 0 t) (iblk m c 1 t) (iblk m c 2 t) (iblk m c 3 t) (iblk m c 4 t) (iblk m c 5 t) (iblk m c 6 t) (iblk m c 7 t) (iblk m c 8 t))
        (iblk m c 9 t) (iblk m c 10 t) y
      = G m c (((cfg0.win 11).blk t).view.emb y) :=
  body_at_idx m c t y

/-- Crossing the window: if contents `X` of window 11's buffer are, entry by entry, an array `A` read through block
    `t`, then what a write-back of `X` writes is block `t` of `A` (the window's blocks are never cut short). -/
theorem cut_read (t : Fin cfg0.N) (X : S4000x10.Idx → EReal) (A : S2000000x10.Idx → EReal)
    (h : ∀ y : S4000x10.Idx, X y = A (((cfg0.win 11).blk t).view.emb y)) :
    (cfg0.win 11).cut (grid0.coords t) X = ((cfg0.win 11).blk t).view.read (Elt Ideal) A :=
  funext fun y => h y

/-- WHAT POINT `t` WRITES BACK is block `t` of `G`. -/
theorem flushed_eq (c : Dev nD) (t : Fin cfg0.N) :
    (dats m 0 c).flushed 11 t = ((cfg0.win 11).blk t).view.read (Elt Ideal) (G m c) := by
  rw [Value.flushed11]
  unfold out0_11
  rw [View.canon_unit_zero hz]
  simp only [View.ld_unit_zero (S := S4000x10) hz, View.ld_unit_zero (S := S4000x5) hz, View.ld_unit_zero (S := S10x10) hz,
    View.ld_unit_zero (S := S5x10) hz, View.ld_unit_zero (S := S1x10) hz]
  exact cut_read t _ (G m c) (body_at_blk m c t)

/-! ## The cover, the array, the run -/

/-- Every row lies in the block of the point `row / 4000`. -/
theorem cover (i : S2000000x10.Idx) : ∃ t : Fin cfg0.N, (cfg0.win 11).flush t = true ∧ i ∈ ((cfg0.win 11).blk t).view.set := by
  have hi0 : (i 0).val < 2000000 := (i 0).isLt
  have hi1 : (i 1).val < 10 := (i 1).isLt
  have ht : (i 0).val / 4000 < cfg0.N := by rw [show cfg0.N = 500 from N_0]; omega
  have o0 : win0_11.index ⟨(i 0).val / 4000, ht⟩ 0 = (i 0).val / 4000 := (idx_facts ⟨(i 0).val / 4000, ht⟩).o0
  have o1 : win0_11.index ⟨(i 0).val / 4000, ht⟩ 1 = 0 := (idx_facts ⟨(i 0).val / 4000, ht⟩).o1
  refine ⟨⟨(i 0).val / 4000, ht⟩, flush0_11 _, ?_⟩
  show i ∈ ((View.whole main_v13).slice (win0_11.rect ⟨(i 0).val / 4000, ht⟩)).set
  rw [View.set_slice_whole, Rect.mem_set_unit]
  intro a
  match a with
  | ⟨0, _⟩ =>
    show win0_11.index ⟨(i 0).val / 4000, ht⟩ 0 * 4000 ≤ (i 0).val
      ∧ (i 0).val < win0_11.index ⟨(i 0).val / 4000, ht⟩ 0 * 4000 + 4000
    rw [o0]; omega
  | ⟨1, _⟩ =>
    show win0_11.index ⟨(i 0).val / 4000, ht⟩ 1 * 10 ≤ (i 1).val
      ∧ (i 1).val < win0_11.index ⟨(i 0).val / 4000, ht⟩ 1 * 10 + 10
    rw [o1]; omega

/-- THE RESULT ARRAY after the run is `G`. -/
theorem final (c : Dev nD) : (dats m 0 c).arrAt 11 cfg0.N = G m c :=
  (dats m 0 c).arrAt_eq_of_cover 11 (G m c) (fun t _ => flushed_eq m c t) cover

/-- The run, read: the result array at `G`, the arguments unchanged. -/
theorem run_G : θ_run defs (onTc (τ := τ) (main (F := Ideal))) ⟨m, fun _ => 0, ρ⟩ fun r => ∀ c : Dev nD,
      r.2.mem ((c : Thread nD τ).loc main_v13) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.EdgeMlp.Ker

end
-- ==== Proof.KerTerms.lean ====
/-
  The kernel's gathered inputs, named.

  The kernel's program reads a table row at an integer with a fill: a negative integer counts from the end (the table's
  height is added to it); if the result names a row of the table that row is fetched, otherwise the row is filled with
  the value of a fixed word.  These are the three arrays so taken, spelt exactly as the kernel's program spells them,
  and beside them the plain gathers (no test, no fill) they agree with wherever every index names a row.
-/
import proofs.«419490_j74663711473943_1_alg».proof.Proof.Gen.KernelIdeal

noncomputable section

namespace Cert.EdgeMlp.Ker

open Cert.KernelIdeal Cert.KernelIdeal.Gen Idealize.ShloMosaic

variable {F : FTy → Type} [FloatOps F]

/-- A negative index counts from the end: `n`, the table's height, is added to it; any other index stays. -/
def wrap (n : BitVec 32) (idx : IVec S2000000 32) : IVec S2000000 32 :=
  select (cmpi .slt idx (broadcastInDim S2000000 ![] bcast_S_S2000000 (constantI S_ 32 0#32)))
    (addi idx (broadcastInDim S2000000 ![] bcast_S_S2000000 (constantI S_ 32 n))) idx

/-- Row 0 of the edge list: every edge's source node. -/
def srcIdx (a2 : IVec S2x2000000 32) : IVec S2000000 32 :=
  fun i => shapeCast S2000000 (extractStridedSlice S1x2000000 ![0, 0] a2 slices_S2x2000000_S1x2000000_0_0)
    shapeCasts_S1x2000000_S2000000 i

/-- Row 1 of the edge list: every edge's target node. -/
def tgtIdx (a2 : IVec S2x2000000 32) : IVec S2000000 32 :=
  fun i => shapeCast S2000000 (extractStridedSlice S1x2000000 ![1, 0] a2 slices_S2x2000000_S1x2000000_1_0)
    shapeCasts_S1x2000000_S2000000 i

/-- The start indices of a row gather: one column holding the wrapped index of each edge. -/
def starts (n : BitVec 32) (idx : IVec S2000000 32) : IVec S2000000x1 32 :=
  broadcastInDim S2000000x1 ![0] bcast_S2000000_S2000000x1_0 (wrap n idx)

/-- Per edge, whether its start index names a row of the table: `0 ≤ start ≤ hi`, `hi` the last row. -/
def inRange (hi : BitVec 32) (st : IVec S2000000x1 32) : IVec S2000000 1 :=
  Host.reduce IntOp.andi
    (andi (cmpi .sge st (broadcastInDim S2000000x1 ![] bcast_S_S2000000x1 (constantI S_ 32 0#32)))
      (cmpi .sle st (broadcastInDim S2000000x1 ![0, 1] bcast_S1x1_S2000000x1_0_1
        (broadcastInDim S1x1 ![1] bcast_S1_S1x1_1 (constantI S1 32 hi)))))
    (constantI S_ 1 1#1) reducesTo_S2000000x1_S2000000_d1 h_S_

/-- Each edge's source-node feature row as the kernel's program takes it: the gathered row where the start index
    names a row, the fill word's value elsewhere. -/
def xsTake (a0 : FVec F S100000x10 .f32) (a2 : IVec S2x2000000 32) : FVec F S2000000x10 .f32 :=
  select (broadcastInDim S2000000x10 ![0] bcast_S2000000_S2000000x10_0 (inRange 99999#32 (starts 100000#32 (srcIdx a2))))
    (Host.gather gather_S100000x10_S2000000x1_S2000000x10_1_0_n_n_0_1_110 a0 (starts 100000#32 (srcIdx a2)))
    (broadcastInDim S2000000x10 ![] bcast_S_S2000000x10 (constant S_ .f32 0x7FC00000#32))

/-- Each edge's target-node feature row, taken the same way. -/
def xtTake (a1 : FVec F S100000x5 .f32) (a2 : IVec S2x2000000 32) : FVec F S2000000x5 .f32 :=
  select (broadcastInDim S2000000x5 ![0] bcast_S2000000_S2000000x5_0 (inRange 99999#32 (starts 100000#32 (tgtIdx a2))))
    (Host.gather gather_S100000x5_S2000000x1_S2000000x5_1_0_n_n_0_1_15 a1 (starts 100000#32 (tgtIdx a2)))
    (broadcastInDim S2000000x5 ![] bcast_S_S2000000x5 (constant S_ .f32 0x7FC00000#32))

/-- Each edge's graph-level feature row, taken the same way from a table of 10000 rows. -/
def ugTake (a4 : FVec F S10000x10 .f32) (a5 : IVec S2000000 32) : FVec F S2000000x10 .f32 :=
  select (broadcastInDim S2000000x10 ![0] bcast_S2000000_S2000000x10_0 (inRange 9999#32 (starts 10000#32 a5)))
    (Host.gather gather_S10000x10_S2000000x1_S2000000x10_1_0_n_n_0_1_110 a4 (starts 10000#32 a5))
    (broadcastInDim S2000000x10 ![] bcast_S_S2000000x10 (constant S_ .f32 0x7FC00000#32))

/-- Each edge's source-node feature row, fetched with no test. -/
def xsG (a0 : FVec F S100000x10 .f32) (a2 : IVec S2x2000000 32) : FVec F S2000000x10 .f32 :=
  Host.gather gather_S100000x10_S2000000x1_S2000000x10_1_0_n_n_0_1_110 a0 (starts 100000#32 (srcIdx a2))

/-- Each edge's target-node feature row, fetched with no test. -/
def xtG (a1 : FVec F S100000x5 .f32) (a2 : IVec S2x2000000 32) : FVec F S2000000x5 .f32 :=
  Host.gather gather_S100000x5_S2000000x1_S2000000x5_1_0_n_n_0_1_15 a1 (starts 100000#32 (tgtIdx a2))

/-- Each edge's graph-level feature row, fetched with no test. -/
def ugG (a4 : FVec F S10000x10 .f32) (a5 : IVec S2000000 32) : FVec F S2000000x10 .f32 :=
  Host.gather gather_S10000x10_S2000000x1_S2000000x10_1_0_n_n_0_1_110 a4 (starts 10000#32 a5)

end Cert.EdgeMlp.Ker

end
-- ==== Proof.KerHostOps.lean ====
/-
  The three masked-take stretches of the kernel's program before its region, restated.

  The generated launch module lists each stretch's operations over typed references, where each operation's
  function is carried to its arrays' types along an equation of types.  Here the same operations are listed over
  the arrays themselves, each function stated at its arrays' own types (plain1, plain2, plain3), and beside
  them the arrays each stretch writes (writes1, writes2, writes3: the result of each operation, in order).
  These are tables; that each list equals the generated one is proved where they are used.
-/
import proofs.«419490_j74663711473943_1_alg».proof.Proof.Gen.KernelIdeal.Launch
import Idealize.ShloMosaic.Lib.StableHlo.Run

noncomputable section

namespace Cert.EdgeMlp.Ker

open Cert.KernelIdeal Cert.KernelIdeal.Gen Idealize.ShloMosaic Idealize.ShloMosaic.TcCoe Idealize.SL.Sem
open Idealize.ShloMosaic.StableHlo

variable {F : FTy → Type} [FloatOps F]

/-- The arrays the first masked take writes. -/
def writes1 : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14, main_call0_cst,
   main_call0_v15, main_v4]

/-- The first masked take's operations over the arrays themselves. -/
abbrev plain1 : List (HloOp τ sig (Elt F)) :=
  [ StableHlo.nullary main_call0_c ((constantI S_ 32 0#32) : (⟨S_, .i32⟩ : BufTy).Contents (Elt F)),
    StableHlo.unary main_call0_c main_call0_v0 ((broadcastInDim S2000000 ![] bcast_S_S2000000) : (⟨S_, .i32⟩ : BufTy).Contents (Elt F) → (⟨S2000000, .i32⟩ : BufTy).Contents (Elt F)),
    StableHlo.binary main_v1 main_call0_v0 main_call0_v1 ((cmpi .slt) : (⟨S2000000, .i32⟩ : BufTy).Contents (Elt F) → (⟨S2000000, .i32⟩ : BufTy).Contents (Elt F) → (⟨S2000000, .i1⟩ : BufTy).Contents (Elt F)),
    StableHlo.nullary main_call0_c_0 ((constantI S_ 32 100000#32) : (⟨S_, .i32⟩ : BufTy).Contents (Elt F)),
    StableHlo.unary main_call0_c_0 main_call0_v2 ((broadcastInDim S2000000 ![] bcast_S_S2000000) : (⟨S_, .i32⟩ : BufTy).Contents (Elt F) → (⟨S2000000, .i32⟩ : BufTy).Contents (Elt F)),
    StableHlo.binary main_v1 main_call0_v2 main_call0_v3 (addi : (⟨S2000000, .i32⟩ : BufTy).Contents (Elt F) → (⟨S2000000, .i32⟩ : BufTy).Contents (Elt F) → (⟨S2000000, .i32⟩ : BufTy).Contents (Elt F)),
    StableHlo.ternary main_call0_v1 main_call0_v3 main_v1 main_call0_v4 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_call0_v4 main_call0_v5 ((broadcastInDim S2000000x1 ![0] bcast_S2000000_S2000000x1_0) : (⟨S2000000, .i32⟩ : BufTy).Contents (Elt F) → (⟨S2000000x1, .i32⟩ : BufTy).Contents (Elt F)),
    StableHlo.nullary main_call0_c_1 ((constantI S1 32 99999#32) : (⟨S1, .i32⟩ : BufTy).Contents (Elt F)),
    StableHlo.nullary main_call0_c_2 ((constantI S_ 32 0#32) : (⟨S_, .i32⟩ : BufTy).Contents (Elt F)),
    StableHlo.unary main_call0_c_2 main_call0_v6 ((broadcastInDim S2000000x1 ![] bcast_S_S2000000x1) : (⟨S_, .i32⟩ : BufTy).Contents (Elt F) → (⟨S2000000x1, .i32⟩ : BufTy).Contents (Elt F)),
    StableHlo.binary main_call0_v5 main_call0_v6 main_call0_v7 ((cmpi .sge) : (⟨S2000000x1, .i32⟩ : BufTy).Contents (Elt F) → (⟨S2000000x1, .i32⟩ : BufTy).Contents (Elt F) → (⟨S2000000x1, .i1⟩ : BufTy).Contents (Elt F)),
    StableHlo.unary main_call0_c_1 main_call0_v8 ((broadcastInDim S1x1 ![1] bcast_S1_S1x1_1) : (⟨S1, .i32⟩ : BufTy).Contents (Elt F) → (⟨S1x1, .i32⟩ : BufTy).Contents (Elt F)),
    StableHlo.unary main_call0_v8 main_call0_v9 ((broadcastInDim S2000000x1 ![0, 1] bcast_S1x1_S2000000x1_0_1) : (⟨S1x1, .i32⟩ : BufTy).Contents (Elt F) → (⟨S2000000x1, .i32⟩ : BufTy).Contents (Elt F)),
    StableHlo.binary main_call0_v5 main_call0_v9 main_call0_v10 ((cmpi .sle) : (⟨S2000000x1, .i32⟩ : BufTy).Contents (Elt F) → (⟨S2000000x1, .i32⟩ : BufTy).Contents (Elt F) → (⟨S2000000x1, .i1⟩ : BufTy).Contents (Elt F)),
    StableHlo.binary main_call0_v7 main_call0_v10 main_call0_v11 (andi : (⟨S2000000x1, .i1⟩ : BufTy).Contents (Elt F) → (⟨S2000000x1, .i1⟩ : BufTy).Contents (Elt F) → (⟨S2000000x1, .i1⟩ : BufTy).Contents (Elt F)),
    StableHlo.nullary main_call0_c_3 ((constantI S_ 1 1#1) : (⟨S_, .i1⟩ : BufTy).Contents (Elt F)),
    StableHlo.binary main_call0_v11 main_call0_c_3 main_call0_v12 ((fun x v => Host.reduce IntOp.andi x v reducesTo_S2000000x1_S2000000_d1 h_S_) : (⟨S2000000x1, .i1⟩ : BufTy).Contents (Elt F) → (⟨S_, .i1⟩ : BufTy).Contents (Elt F) → (⟨S2000000, .i1⟩ : BufTy).Contents (Elt F)),
    StableHlo.binary main_arg0 main_call0_v5 main_call0_v13 ((fun x i => Host.gather gather_S100000x10_S2000000x1_S2000000x10_1_0_n_n_0_1_110 x i) : (⟨S100000x10, .f32⟩ : BufTy).Contents (Elt F) → (⟨S2000000x1, .i32⟩ : BufTy).Contents (Elt F) → (⟨S2000000x10, .f32⟩ : BufTy).Contents (Elt F)),
    StableHlo.unary main_call0_v12 main_call0_v14 ((broadcastInDim S2000000x10 ![0] bcast_S2000000_S2000000x10_0) : (⟨S2000000, .i1⟩ : BufTy).Contents (Elt F) → (⟨S2000000x10, .i1⟩ : BufTy).Contents (Elt F)),
    StableHlo.nullary main_call0_cst ((constant S_ .f32 0x7FC00000#32) : (⟨S_, .f32⟩ : BufTy).Contents (Elt F)),
    StableHlo.unary main_call0_cst main_call0_v15 ((broadcastInDim S2000000x10 ![] bcast_S_S2000000x10) : (⟨S_, .f32⟩ : BufTy).Contents (Elt F) → (⟨S2000000x10, .f32⟩ : BufTy).Contents (Elt F)),
    StableHlo.ternary main_call0_v14 main_call0_v13 main_call0_v15 main_v4 (select : (⟨S2000000x10, .i1⟩ : BufTy).Contents (Elt F) → (⟨S2000000x10, .f32⟩ : BufTy).Contents (Elt F) → (⟨S2000000x10, .f32⟩ : BufTy).Contents (Elt F) → (⟨S2000000x10, .f32⟩ : BufTy).Contents (Elt F)) ]

/-- The arrays the second masked take writes. -/
def writes2 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v5]

/-- The second masked take's operations over the arrays themselves. -/
abbrev plain2 : List (HloOp τ sig (Elt F)) :=
  [ StableHlo.nullary main_call1_c ((constantI S_ 32 0#32) : (⟨S_, .i32⟩ : BufTy).Contents (Elt F)),
    StableHlo.unary main_call1_c main_call1_v0 ((broadcastInDim S2000000 ![] bcast_S_S2000000) : (⟨S_, .i32⟩ : BufTy).Contents (Elt F) → (⟨S2000000, .i32⟩ : BufTy).Contents (Elt F)),
    StableHlo.binary main_v3 main_call1_v0 main_call1_v1 ((cmpi .slt) : (⟨S2000000, .i32⟩ : BufTy).Contents (Elt F) → (⟨S2000000, .i32⟩ : BufTy).Contents (Elt F) → (⟨S2000000, .i1⟩ : BufTy).Contents (Elt F)),
    StableHlo.nullary main_call1_c_0 ((constantI S_ 32 100000#32) : (⟨S_, .i32⟩ : BufTy).Contents (Elt F)),
    StableHlo.unary main_call1_c_0 main_call1_v2 ((broadcastInDim S2000000 ![] bcast_S_S2000000) : (⟨S_, .i32⟩ : BufTy).Contents (Elt F) → (⟨S2000000, .i32⟩ : BufTy).Contents (Elt F)),
    StableHlo.binary main_v3 main_call1_v2 main_call1_v3 (addi : (⟨S2000000, .i32⟩ : BufTy).Contents (Elt F) → (⟨S2000000, .i32⟩ : BufTy).Contents (Elt F) → (⟨S2000000, .i32⟩ : BufTy).Contents (Elt F)),
    StableHlo.ternary main_call1_v1 main_call1_v3 main_v3 main_call1_v4 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_call1_v4 main_call1_v5 ((broadcastInDim S2000000x1 ![0] bcast_S2000000_S2000000x1_0) : (⟨S2000000, .i32⟩ : BufTy).Contents (Elt F) → (⟨S2000000x1, .i32⟩ : BufTy).Contents (Elt F)),
    StableHlo.nullary main_call1_c_1 ((constantI S1 32 99999#32) : (⟨S1, .i32⟩ : BufTy).Contents (Elt F)),
    StableHlo.nullary main_call1_c_2 ((constantI S_ 32 0#32) : (⟨S_, .i32⟩ : BufTy).Contents (Elt F)),
    StableHlo.unary main_call1_c_2 main_call1_v6 ((broadcastInDim S2000000x1 ![] bcast_S_S2000000x1) : (⟨S_, .i32⟩ : BufTy).Contents (Elt F) → (⟨S2000000x1, .i32⟩ : BufTy).Contents (Elt F)),
    StableHlo.binary main_call1_v5 main_call1_v6 main_call1_v7 ((cmpi .sge) : (⟨S2000000x1, .i32⟩ : BufTy).Contents (Elt F) → (⟨S2000000x1, .i32⟩ : BufTy).Contents (Elt F) → (⟨S2000000x1, .i1⟩ : BufTy).Contents (Elt F)),
    StableHlo.unary main_call1_c_1 main_call1_v8 ((broadcastInDim S1x1 ![1] bcast_S1_S1x1_1) : (⟨S1, .i32⟩ : BufTy).Contents (Elt F) → (⟨S1x1, .i32⟩ : BufTy).Contents (Elt F)),
    StableHlo.unary main_call1_v8 main_call1_v9 ((broadcastInDim S2000000x1 ![0, 1] bcast_S1x1_S2000000x1_0_1) : (⟨S1x1, .i32⟩ : BufTy).Contents (Elt F) → (⟨S2000000x1, .i32⟩ : BufTy).Contents (Elt F)),
    StableHlo.binary main_call1_v5 main_call1_v9 main_call1_v10 ((cmpi .sle) : (⟨S2000000x1, .i32⟩ : BufTy).Contents (Elt F) → (⟨S2000000x1, .i32⟩ : BufTy).Contents (Elt F) → (⟨S2000000x1, .i1⟩ : BufTy).Contents (Elt F)),
    StableHlo.binary main_call1_v7 main_call1_v10 main_call1_v11 (andi : (⟨S2000000x1, .i1⟩ : BufTy).Contents (Elt F) → (⟨S2000000x1, .i1⟩ : BufTy).Contents (Elt F) → (⟨S2000000x1, .i1⟩ : BufTy).Contents (Elt F)),
    StableHlo.nullary main_call1_c_3 ((constantI S_ 1 1#1) : (⟨S_, .i1⟩ : BufTy).Contents (Elt F)),
    StableHlo.binary main_call1_v11 main_call1_c_3 main_call1_v12 ((fun x v => Host.reduce IntOp.andi x v reducesTo_S2000000x1_S2000000_d1 h_S_) : (⟨S2000000x1, .i1⟩ : BufTy).Contents (Elt F) → (⟨S_, .i1⟩ : BufTy).Contents (Elt F) → (⟨S2000000, .i1⟩ : BufTy).Contents (Elt F)),
    StableHlo.binary main_arg1 main_call1_v5 main_call1_v13 ((fun x i => Host.gather gather_S100000x5_S2000000x1_S2000000x5_1_0_n_n_0_1_15 x i) : (⟨S100000x5, .f32⟩ : BufTy).Contents (Elt F) → (⟨S2000000x1, .i32⟩ : BufTy).Contents (Elt F) → (⟨S2000000x5, .f32⟩ : BufTy).Contents (Elt F)),
    StableHlo.unary main_call1_v12 main_call1_v14 ((broadcastInDim S2000000x5 ![0] bcast_S2000000_S2000000x5_0) : (⟨S2000000, .i1⟩ : BufTy).Contents (Elt F) → (⟨S2000000x5, .i1⟩ : BufTy).Contents (Elt F)),
    StableHlo.nullary main_call1_cst ((constant S_ .f32 0x7FC00000#32) : (⟨S_, .f32⟩ : BufTy).Contents (Elt F)),
    StableHlo.unary main_call1_cst main_call1_v15 ((broadcastInDim S2000000x5 ![] bcast_S_S2000000x5) : (⟨S_, .f32⟩ : BufTy).Contents (Elt F) → (⟨S2000000x5, .f32⟩ : BufTy).Contents (Elt F)),
    StableHlo.ternary main_call1_v14 main_call1_v13 main_call1_v15 main_v5 (select : (⟨S2000000x5, .i1⟩ : BufTy).Contents (Elt F) → (⟨S2000000x5, .f32⟩ : BufTy).Contents (Elt F) → (⟨S2000000x5, .f32⟩ : BufTy).Contents (Elt F) → (⟨S2000000x5, .f32⟩ : BufTy).Contents (Elt F)) ]

/-- The arrays the third masked take writes. -/
def writes3 : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_v14, main_call2_cst,
   main_call2_v15, main_v6]

/-- The third masked take's operations over the arrays themselves. -/
abbrev plain3 : List (HloOp τ sig (Elt F)) :=
  [ StableHlo.nullary main_call2_c ((constantI S_ 32 0#32) : (⟨S_, .i32⟩ : BufTy).Contents (Elt F)),
    StableHlo.unary main_call2_c main_call2_v0 ((broadcastInDim S2000000 ![] bcast_S_S2000000) : (⟨S_, .i32⟩ : BufTy).Contents (Elt F) → (⟨S2000000, .i32⟩ : BufTy).Contents (Elt F)),
    StableHlo.binary main_arg5 main_call2_v0 main_call2_v1 ((cmpi .slt) : (⟨S2000000, .i32⟩ : BufTy).Contents (Elt F) → (⟨S2000000, .i32⟩ : BufTy).Contents (Elt F) → (⟨S2000000, .i1⟩ : BufTy).Contents (Elt F)),
    StableHlo.nullary main_call2_c_0 ((constantI S_ 32 10000#32) : (⟨S_, .i32⟩ : BufTy).Contents (Elt F)),
    StableHlo.unary main_call2_c_0 main_call2_v2 ((broadcastInDim S2000000 ![] bcast_S_S2000000) : (⟨S_, .i32⟩ : BufTy).Contents (Elt F) → (⟨S2000000, .i32⟩ : BufTy).Contents (Elt F)),
    StableHlo.binary main_arg5 main_call2_v2 main_call2_v3 (addi : (⟨S2000000, .i32⟩ : BufTy).Contents (Elt F) → (⟨S2000000, .i32⟩ : BufTy).Contents (Elt F) → (⟨S2000000, .i32⟩ : BufTy).Contents (Elt F)),
    StableHlo.ternary main_call2_v1 main_call2_v3 main_arg5 main_call2_v4 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_call2_v4 main_call2_v5 ((broadcastInDim S2000000x1 ![0] bcast_S2000000_S2000000x1_0) : (⟨S2000000, .i32⟩ : BufTy).Contents (Elt F) → (⟨S2000000x1, .i32⟩ : BufTy).Contents (Elt F)),
    StableHlo.nullary main_call2_c_1 ((constantI S1 32 9999#32) : (⟨S1, .i32⟩ : BufTy).Contents (Elt F)),
    StableHlo.nullary main_call2_c_2 ((constantI S_ 32 0#32) : (⟨S_, .i32⟩ : BufTy).Contents (Elt F)),
    StableHlo.unary main_call2_c_2 main_call2_v6 ((broadcastInDim S2000000x1 ![] bcast_S_S2000000x1) : (⟨S_, .i32⟩ : BufTy).Contents (Elt F) → (⟨S2000000x1, .i32⟩ : BufTy).Contents (Elt F)),
    StableHlo.binary main_call2_v5 main_call2_v6 main_call2_v7 ((cmpi .sge) : (⟨S2000000x1, .i32⟩ : BufTy).Contents (Elt F) → (⟨S2000000x1, .i32⟩ : BufTy).Contents (Elt F) → (⟨S2000000x1, .i1⟩ : BufTy).Contents (Elt F)),
    StableHlo.unary main_call2_c_1 main_call2_v8 ((broadcastInDim S1x1 ![1] bcast_S1_S1x1_1) : (⟨S1, .i32⟩ : BufTy).Contents (Elt F) → (⟨S1x1, .i32⟩ : BufTy).Contents (Elt F)),
    StableHlo.unary main_call2_v8 main_call2_v9 ((broadcastInDim S2000000x1 ![0, 1] bcast_S1x1_S2000000x1_0_1) : (⟨S1x1, .i32⟩ : BufTy).Contents (Elt F) → (⟨S2000000x1, .i32⟩ : BufTy).Contents (Elt F)),
    StableHlo.binary main_call2_v5 main_call2_v9 main_call2_v10 ((cmpi .sle) : (⟨S2000000x1, .i32⟩ : BufTy).Contents (Elt F) → (⟨S2000000x1, .i32⟩ : BufTy).Contents (Elt F) → (⟨S2000000x1, .i1⟩ : BufTy).Contents (Elt F)),
    StableHlo.binary main_call2_v7 main_call2_v10 main_call2_v11 (andi : (⟨S2000000x1, .i1⟩ : BufTy).Contents (Elt F) → (⟨S2000000x1, .i1⟩ : BufTy).Contents (Elt F) → (⟨S2000000x1, .i1⟩ : BufTy).Contents (Elt F)),
    StableHlo.nullary main_call2_c_3 ((constantI S_ 1 1#1) : (⟨S_, .i1⟩ : BufTy).Contents (Elt F)),
    StableHlo.binary main_call2_v11 main_call2_c_3 main_call2_v12 ((fun x v => Host.reduce IntOp.andi x v reducesTo_S2000000x1_S2000000_d1 h_S_) : (⟨S2000000x1, .i1⟩ : BufTy).Contents (Elt F) → (⟨S_, .i1⟩ : BufTy).Contents (Elt F) → (⟨S2000000, .i1⟩ : BufTy).Contents (Elt F)),
    StableHlo.binary main_arg4 main_call2_v5 main_call2_v13 ((fun x i => Host.gather gather_S10000x10_S2000000x1_S2000000x10_1_0_n_n_0_1_110 x i) : (⟨S10000x10, .f32⟩ : BufTy).Contents (Elt F) → (⟨S2000000x1, .i32⟩ : BufTy).Contents (Elt F) → (⟨S2000000x10, .f32⟩ : BufTy).Contents (Elt F)),
    StableHlo.unary main_call2_v12 main_call2_v14 ((broadcastInDim S2000000x10 ![0] bcast_S2000000_S2000000x10_0) : (⟨S2000000, .i1⟩ : BufTy).Contents (Elt F) → (⟨S2000000x10, .i1⟩ : BufTy).Contents (Elt F)),
    StableHlo.nullary main_call2_cst ((constant S_ .f32 0x7FC00000#32) : (⟨S_, .f32⟩ : BufTy).Contents (Elt F)),
    StableHlo.unary main_call2_cst main_call2_v15 ((broadcastInDim S2000000x10 ![] bcast_S_S2000000x10) : (⟨S_, .f32⟩ : BufTy).Contents (Elt F) → (⟨S2000000x10, .f32⟩ : BufTy).Contents (Elt F)),
    StableHlo.ternary main_call2_v14 main_call2_v13 main_call2_v15 main_v6 (select : (⟨S2000000x10, .i1⟩ : BufTy).Contents (Elt F) → (⟨S2000000x10, .f32⟩ : BufTy).Contents (Elt F) → (⟨S2000000x10, .f32⟩ : BufTy).Contents (Elt F) → (⟨S2000000x10, .f32⟩ : BufTy).Contents (Elt F)) ]

end Cert.EdgeMlp.Ker

end
-- ==== Proof.KerHost.lean ====
/-
  What the operations before the kernel's region leave in the three gathered arrays the region reads.

  Before its region the kernel's program runs five stretches of whole-array operations: the edge list is cut into its
  source row and its target row; then three masked takes, one per table (source-node features, target-node features,
  graph-level features), each a stretch of twenty-three operations writing one array; then the cuts of the first
  weight matrix and the reshaped biases.  A stretch changes only the arrays it writes, so each taken array is what its
  own stretch computes from the contents its operands had when the stretch began, and those operands are either
  arguments (never written) or the two rows cut from the edge list in the first stretch.
-/
import proofs.«419490_j74663711473943_1_alg».proof.Proof.Gen.KernelIdeal.Frame
import proofs.«419490_j74663711473943_1_alg».proof.Proof.KerTerms
import proofs.«419490_j74663711473943_1_alg».proof.Proof.KerHostOps
import Idealize.ShloMosaic.Lib.StableHlo.Run

set_option maxRecDepth 16384

noncomputable section

namespace Cert.EdgeMlp.Ker

open Cert.KernelIdeal Cert.KernelIdeal.Gen Idealize.ShloMosaic Idealize.ShloMosaic.TcCoe Idealize.SL.Sem
open Idealize.ShloMosaic.StableHlo

variable {F : FTy → Type} [FloatOps F] (m : (ℓ : Loc nD τ sig) → Buf (Elt F) ℓ)

-- the reduction and the gather are compared as they stand, never computed
attribute [local irreducible] Host.reduce Host.gather

/-! ## The stretches in a row -/

/-- The contents when the region is entered: the five stretches applied one after the other. -/
theorem V_split (c : Dev nD) (b : Ref sig .tc) :
    V m c b = after hostOps0_4 (after hostOps0_3 (after hostOps0_2 (after hostOps0_1 (after hostOps0 (fun b => m (c, b)))))) b := by
  show after (List.flatten [hostOps0, hostOps0_1, hostOps0_2, hostOps0_3, hostOps0_4]) (fun b => m (c, b)) b = _
  rw [List.flatten_cons, List.flatten_cons, List.flatten_cons, List.flatten_cons, List.flatten_cons, List.flatten_nil,
    List.append_nil, after_append, after_append, after_append, after_append]

/-! ## What each stretch leaves alone: every array it does not write -/

/-- The arrays the first stretch writes. -/
def writes0 : List (Ref sig .tc) := [main_v0, main_v1, main_v2, main_v3]
/-- The arrays the last stretch writes. -/
def writes4 : List (Ref sig .tc) := [main_v7, main_v8, main_v9, main_v10, main_v11, main_v12]

theorem keeps0 (W : Valuation τ sig (Elt F)) {r : Ref sig .tc} (hr : r ∉ writes0) :
    after hostOps0 W (Proc.devRef .tc r) = W (Proc.devRef .tc r) :=
  after_of_writes_sub (W := writes0) _ W (by
    simp only [hostOps0, List.Forall, StableHlo.unary_writes, StableHlo.reshape_writes]
    repeat' apply And.intro
    all_goals exact Finset.singleton_subset_iff.2 (List.mem_toFinset.2 (List.mem_map_of_mem (by decide)))) hr
theorem keeps1 (W : Valuation τ sig (Elt F)) {r : Ref sig .tc} (hr : r ∉ writes1) :
    after hostOps0_1 W (Proc.devRef .tc r) = W (Proc.devRef .tc r) :=
  after_of_writes_sub (W := writes1) _ W (by
    simp only [hostOps0_1, List.Forall, StableHlo.nullary_writes, StableHlo.unary_writes, StableHlo.binary_writes, StableHlo.ternary_writes]
    repeat' apply And.intro
    all_goals exact Finset.singleton_subset_iff.2 (List.mem_toFinset.2 (List.mem_map_of_mem (by decide)))) hr
theorem keeps2 (W : Valuation τ sig (Elt F)) {r : Ref sig .tc} (hr : r ∉ writes2) :
    after hostOps0_2 W (Proc.devRef .tc r) = W (Proc.devRef .tc r) :=
  after_of_writes_sub (W := writes2) _ W (by
    simp only [hostOps0_2, List.Forall, StableHlo.nullary_writes, StableHlo.unary_writes, StableHlo.binary_writes, StableHlo.ternary_writes]
    repeat' apply And.intro
    all_goals exact Finset.singleton_subset_iff.2 (List.mem_toFinset.2 (List.mem_map_of_mem (by decide)))) hr
theorem keeps3 (W : Valuation τ sig (Elt F)) {r : Ref sig .tc} (hr : r ∉ writes3) :
    after hostOps0_3 W (Proc.devRef .tc r) = W (Proc.devRef .tc r) :=
  after_of_writes_sub (W := writes3) _ W (by
    simp only [hostOps0_3, List.Forall, StableHlo.nullary_writes, StableHlo.unary_writes, StableHlo.binary_writes, StableHlo.ternary_writes]
    repeat' apply And.intro
    all_goals exact Finset.singleton_subset_iff.2 (List.mem_toFinset.2 (List.mem_map_of_mem (by decide)))) hr
theorem keeps4 (W : Valuation τ sig (Elt F)) {r : Ref sig .tc} (hr : r ∉ writes4) :
    after hostOps0_4 W (Proc.devRef .tc r) = W (Proc.devRef .tc r) :=
  after_of_writes_sub (W := writes4) _ W (by
    simp only [hostOps0_4, List.Forall, StableHlo.unary_writes, StableHlo.reshape_writes]
    repeat' apply And.intro
    all_goals exact Finset.singleton_subset_iff.2 (List.mem_toFinset.2 (List.mem_map_of_mem (by decide)))) hr

/-! ## The first stretch: the two rows of the edge list -/

/-- After the first stretch the source row holds row 0 of the edge list. -/
theorem src0 (W : Valuation τ sig (Elt F)) :
    (after hostOps0 W (Proc.devRef .tc main_v1) : IVec S2000000 32) = srcIdx (W (Proc.devRef .tc main_arg2)) := by
  after_results
  rfl

/-- After the first stretch the target row holds row 1 of the edge list. -/
theorem tgt0 (W : Valuation τ sig (Elt F)) :
    (after hostOps0 W (Proc.devRef .tc main_v3) : IVec S2000000 32) = tgtIdx (W (Proc.devRef .tc main_arg2)) := by
  after_results
  rfl

/-! ## The masked takes, over any index vector -/

/-- The masked take of a table of 100000 rows of 10 at an index vector. -/
def take10 (tbl : FVec F S100000x10 .f32) (idx : IVec S2000000 32) : FVec F S2000000x10 .f32 :=
  select (broadcastInDim S2000000x10 ![0] bcast_S2000000_S2000000x10_0 (inRange 99999#32 (starts 100000#32 idx)))
    (Host.gather gather_S100000x10_S2000000x1_S2000000x10_1_0_n_n_0_1_110 tbl (starts 100000#32 idx))
    (broadcastInDim S2000000x10 ![] bcast_S_S2000000x10 (constant S_ .f32 0x7FC00000#32))

/-- The masked take of a table of 100000 rows of 5 at an index vector. -/
def take5 (tbl : FVec F S100000x5 .f32) (idx : IVec S2000000 32) : FVec F S2000000x5 .f32 :=
  select (broadcastInDim S2000000x5 ![0] bcast_S2000000_S2000000x5_0 (inRange 99999#32 (starts 100000#32 idx)))
    (Host.gather gather_S100000x5_S2000000x1_S2000000x5_1_0_n_n_0_1_15 tbl (starts 100000#32 idx))
    (broadcastInDim S2000000x5 ![] bcast_S_S2000000x5 (constant S_ .f32 0x7FC00000#32))

/-- Each masked take's stretch is the list of its operations over the arrays themselves: carrying a function to its
    arrays' types along an equation both of whose sides are the same type changes nothing. -/
theorem hostOps0_1_plain : (hostOps0_1 : List (HloOp τ sig (Elt F))) = plain1 := rfl
theorem hostOps0_2_plain : (hostOps0_2 : List (HloOp τ sig (Elt F))) = plain2 := rfl
theorem hostOps0_3_plain : (hostOps0_3 : List (HloOp τ sig (Elt F))) = plain3 := rfl

/-- The first masked take leaves the take of the source-node table at the source row. -/
theorem take1 (W : Valuation τ sig (Elt F)) :
    (after hostOps0_1 W (Proc.devRef .tc main_v4) : FVec F S2000000x10 .f32)
      = take10 (W (Proc.devRef .tc main_arg0)) (W (Proc.devRef .tc main_v1)) := by
  rw [hostOps0_1_plain]
  after_results_simp
  rfl

/-- The second masked take leaves the take of the target-node table at the target row. -/
theorem take2 (W : Valuation τ sig (Elt F)) :
    (after hostOps0_2 W (Proc.devRef .tc main_v5) : FVec F S2000000x5 .f32)
      = take5 (W (Proc.devRef .tc main_arg1)) (W (Proc.devRef .tc main_v3)) := by
  rw [hostOps0_2_plain]
  after_results_simp
  rfl

/-- The third masked take leaves the take of the graph-level table at the per-edge graph index. -/
theorem take3 (W : Valuation τ sig (Elt F)) :
    (after hostOps0_3 W (Proc.devRef .tc main_v6) : FVec F S2000000x10 .f32)
      = ugTake (W (Proc.devRef .tc main_arg4)) (W (Proc.devRef .tc main_arg5)) := by
  rw [hostOps0_3_plain]
  after_results_simp
  rfl

/-! ## The three taken arrays when the region is entered -/

/-- The source-node rows: later stretches leave the array alone, its own stretch takes the source-node table at the
    source row, and the first stretch left the table as launched and the source row as row 0 of the edge list. -/
theorem V_v4 (c : Dev nD) : (V m c main_v4 : FVec F S2000000x10 .f32)
    = xsTake (m ((c : Thread nD τ).loc main_arg0)) (m ((c : Thread nD τ).loc main_arg2)) := by
  refine (V_split m c main_v4).trans ?_
  rw [keeps4 (r := main_v4) _ (by decide), keeps3 (r := main_v4) _ (by decide), keeps2 (r := main_v4) _ (by decide),
    take1, keeps0 (r := main_arg0) _ (by decide), src0]
  rfl

/-- The target-node rows, likewise: the first masked take writes neither the target-node table nor the target row. -/
theorem V_v5 (c : Dev nD) : (V m c main_v5 : FVec F S2000000x5 .f32)
    = xtTake (m ((c : Thread nD τ).loc main_arg1)) (m ((c : Thread nD τ).loc main_arg2)) := by
  refine (V_split m c main_v5).trans ?_
  rw [keeps4 (r := main_v5) _ (by decide), keeps3 (r := main_v5) _ (by decide), take2,
    keeps1 (r := main_arg1) _ (by decide), keeps1 (r := main_v3) _ (by decide), keeps0 (r := main_arg1) _ (by decide), tgt0]
  rfl

/-- The graph-level rows: both operands are arguments, which no earlier stretch writes. -/
theorem V_v6 (c : Dev nD) : (V m c main_v6 : FVec F S2000000x10 .f32)
    = ugTake (m ((c : Thread nD τ).loc main_arg4)) (m ((c : Thread nD τ).loc main_arg5)) := by
  refine (V_split m c main_v6).trans ?_
  rw [keeps4 (r := main_v6) _ (by decide), take3,
    keeps2 (r := main_arg4) _ (by decide), keeps2 (r := main_arg5) _ (by decide),
    keeps1 (r := main_arg4) _ (by decide), keeps1 (r := main_arg5) _ (by decide),
    keeps0 (r := main_arg4) _ (by decide), keeps0 (r := main_arg5) _ (by decide)]

end Cert.EdgeMlp.Ker

end
-- ==== Proof.KerHostW.lean ====
/-
  The weight and bias arrays the host prefix prepares for the kernel, for any float values.

  Before the kernel's region @main runs five stretches of host operations.  The last stretch cuts the stacked
  first-layer weight (35 × 10) into its four bands of rows — one per piece of the concatenated feature row — and
  reshapes the two bias vectors into rows of one.  It reads only arguments that no earlier stretch writes, so each of
  its six results is that slice or reshape of the argument as launched.
-/
import proofs.«419490_j74663711473943_1_alg».proof.Proof.Gen.KernelIdeal.Frame
import Idealize.ShloMosaic.Lib.StableHlo.Run

noncomputable section

namespace Cert.EdgeMlp.Ker

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ)

/-! ## The fold split before its last stretch -/

/-- The buffers when the region is entered are the last stretch's fold over the buffers after the first four. -/
theorem V_split_last (c : Dev nD) (b : Ref sig .tc) :
    V m c b = after hostOps0_4 (after (List.flatten [hostOps0, hostOps0_1, hostOps0_2, hostOps0_3]) (fun b => m (c, b)))
      (Proc.devRef .tc b) := by
  have h : List.flatten [hostOps0 (F := F), hostOps0_1, hostOps0_2, hostOps0_3, hostOps0_4]
      = List.flatten [hostOps0 (F := F), hostOps0_1, hostOps0_2, hostOps0_3] ++ hostOps0_4 := by
    simp only [List.flatten_cons, List.flatten_nil, List.append_nil, List.append_assoc]
  show after (List.flatten [hostOps0, hostOps0_1, hostOps0_2, hostOps0_3, hostOps0_4]) (fun b => m (c, b)) (Proc.devRef .tc b) = _
  rw [h, StableHlo.after_append]

/-- None of the first four stretches writes argument 6: the last stretch finds it as launched. -/
theorem before_arg6 (c : Dev nD) :
    after (List.flatten [hostOps0, hostOps0_1, hostOps0_2, hostOps0_3]) (fun b => m (c, b)) (Proc.devRef .tc main_arg6)
      = m ((c : Thread nD τ).loc main_arg6) :=
  StableHlo.after_of_forall_not_mem (b := Proc.devRef .tc main_arg6) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the first four stretches writes argument 7: the last stretch finds it as launched. -/
theorem before_arg7 (c : Dev nD) :
    after (List.flatten [hostOps0, hostOps0_1, hostOps0_2, hostOps0_3]) (fun b => m (c, b)) (Proc.devRef .tc main_arg7)
      = m ((c : Thread nD τ).loc main_arg7) :=
  StableHlo.after_of_forall_not_mem (b := Proc.devRef .tc main_arg7) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the first four stretches writes argument 9: the last stretch finds it as launched. -/
theorem before_arg9 (c : Dev nD) :
    after (List.flatten [hostOps0, hostOps0_1, hostOps0_2, hostOps0_3]) (fun b => m (c, b)) (Proc.devRef .tc main_arg9)
      = m ((c : Thread nD τ).loc main_arg9) :=
  StableHlo.after_of_forall_not_mem (b := Proc.devRef .tc main_arg9) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The last stretch over any contents -/

/-- The last stretch leaves in `main_v7` rows 0–9 of the stacked weight: the band that meets the source-node features. -/
theorem last_v7 (W : Valuation τ sig (Elt F)) :
    (after hostOps0_4 W (Proc.devRef .tc main_v7) : FVec F S10x10 .f32)
      = extractStridedSlice S10x10 ![0, 0] (W (Proc.devRef .tc main_arg6)) slices_S35x10_S10x10_0_0 := by
  after_results

/-- The last stretch leaves in `main_v8` rows 10–14: the band that meets the target-node features. -/
theorem last_v8 (W : Valuation τ sig (Elt F)) :
    (after hostOps0_4 W (Proc.devRef .tc main_v8) : FVec F S5x10 .f32)
      = extractStridedSlice S5x10 ![10, 0] (W (Proc.devRef .tc main_arg6)) slices_S35x10_S5x10_10_0 := by
  after_results

/-- The last stretch leaves in `main_v9` rows 15–24: the band that meets the edge attributes. -/
theorem last_v9 (W : Valuation τ sig (Elt F)) :
    (after hostOps0_4 W (Proc.devRef .tc main_v9) : FVec F S10x10 .f32)
      = extractStridedSlice S10x10 ![15, 0] (W (Proc.devRef .tc main_arg6)) slices_S35x10_S10x10_15_0 := by
  after_results

/-- The last stretch leaves in `main_v10` rows 25–34: the band that meets the graph-level features. -/
theorem last_v10 (W : Valuation τ sig (Elt F)) :
    (after hostOps0_4 W (Proc.devRef .tc main_v10) : FVec F S10x10 .f32)
      = extractStridedSlice S10x10 ![25, 0] (W (Proc.devRef .tc main_arg6)) slices_S35x10_S10x10_25_0 := by
  after_results

/-- The last stretch leaves in `main_v11` the first bias as a row of one. -/
theorem last_v11 (W : Valuation τ sig (Elt F)) :
    (after hostOps0_4 W (Proc.devRef .tc main_v11) : FVec F S1x10 .f32)
      = fun i => shapeCast S1x10 (W (Proc.devRef .tc main_arg7)) shapeCasts_S10_S1x10 i := by
  after_results
  rfl

/-- The last stretch leaves in `main_v12` the second bias as a row of one. -/
theorem last_v12 (W : Valuation τ sig (Elt F)) :
    (after hostOps0_4 W (Proc.devRef .tc main_v12) : FVec F S1x10 .f32)
      = fun i => shapeCast S1x10 (W (Proc.devRef .tc main_arg9)) shapeCasts_S10_S1x10 i := by
  after_results
  rfl

/-! ## The six arrays when the region is entered -/

/-- `main_v7` holds rows 0–9 of the stacked weight of the weight as launched. -/
theorem V_v7 (c : Dev nD) :
    (V m c main_v7 : FVec F S10x10 .f32)
      = extractStridedSlice S10x10 ![0, 0] (m ((c : Thread nD τ).loc main_arg6)) slices_S35x10_S10x10_0_0 := by
  have h := (V_split_last m c main_v7).trans (last_v7 _)
  rw [before_arg6 m c] at h
  exact h

/-- `main_v8` holds rows 10–14 of the weight as launched. -/
theorem V_v8 (c : Dev nD) :
    (V m c main_v8 : FVec F S5x10 .f32)
      = extractStridedSlice S5x10 ![10, 0] (m ((c : Thread nD τ).loc main_arg6)) slices_S35x10_S5x10_10_0 := by
  have h := (V_split_last m c main_v8).trans (last_v8 _)
  rw [before_arg6 m c] at h
  exact h

/-- `main_v9` holds rows 15–24 of the weight as launched. -/
theorem V_v9 (c : Dev nD) :
    (V m c main_v9 : FVec F S10x10 .f32)
      = extractStridedSlice S10x10 ![15, 0] (m ((c : Thread nD τ).loc main_arg6)) slices_S35x10_S10x10_15_0 := by
  have h := (V_split_last m c main_v9).trans (last_v9 _)
  rw [before_arg6 m c] at h
  exact h

/-- `main_v10` holds rows 25–34 of the weight as launched. -/
theorem V_v10 (c : Dev nD) :
    (V m c main_v10 : FVec F S10x10 .f32)
      = extractStridedSlice S10x10 ![25, 0] (m ((c : Thread nD τ).loc main_arg6)) slices_S35x10_S10x10_25_0 := by
  have h := (V_split_last m c main_v10).trans (last_v10 _)
  rw [before_arg6 m c] at h
  exact h

/-- `main_v11` holds the first bias as launched, as a row of one. -/
theorem V_v11 (c : Dev nD) :
    (V m c main_v11 : FVec F S1x10 .f32)
      = fun i => shapeCast S1x10 (m ((c : Thread nD τ).loc main_arg7)) shapeCasts_S10_S1x10 i := by
  have h := (V_split_last m c main_v11).trans (last_v11 _)
  rw [before_arg7 m c] at h
  exact h

/-- `main_v12` holds the second bias as launched, as a row of one. -/
theorem V_v12 (c : Dev nD) :
    (V m c main_v12 : FVec F S1x10 .f32)
      = fun i => shapeCast S1x10 (m ((c : Thread nD τ).loc main_arg9)) shapeCasts_S10_S1x10 i := by
  have h := (V_split_last m c main_v12).trans (last_v12 _)
  rw [before_arg9 m c] at h
  exact h

end Cert.EdgeMlp.Ker

end
-- ==== Proof.WrapWord.lean ====
/-
  Wrapping a signed 32-bit index the NumPy way.

  An index x with -n ≤ x < n (as a signed word) is wrapped by adding n when it is negative.  For
  0 < n < 2^30 the sum x + n does not leave the signed range, so the wrapped word is x + n ∈ [0, n-1]
  when x < 0 and x ∈ [0, n-1] otherwise.  Stated at the two table heights used: 100000 and 10000.
-/
import Idealize.ShloMosaic.Lib.Affine

namespace Cert.EdgeMlp.Range

open Idealize.ShloMosaic

/-- The signed value of a sum of two words whose signed values add up inside the signed range. -/
private theorem toInt_add_of_bounds (x y : BitVec 32)
    (hlo : -(2 ^ 31 : Int) ≤ x.toInt + y.toInt) (hhi : x.toInt + y.toInt < 2 ^ 31) :
    (x + y).toInt = x.toInt + y.toInt := by
  rw [BitVec.toInt_add]
  have e : ((2 ^ 32 : Nat) : Int) = 4294967296 := by decide
  exact Int.bmod_eq_of_le_mul_two (by rw [e]; omega) (by rw [e]; omega)

/-- The wrap, in signed values: for 0 < n < 2^30 and -n ≤ x < n, the wrapped word lies in [0, n-1]. -/
private theorem wrap_inb (x nn lo top : BitVec 32) (n : Int) (hn0 : 0 < n) (hn1 : n < 2 ^ 30)
    (hnn : nn.toInt = n) (hlo' : lo.toInt = -n) (htop : top.toInt = n - 1)
    (hlo : IntOp.cmpi .sge x lo = 1#1) (hhi : IntOp.cmpi .slt x nn = 1#1) :
    IntOp.cmpi .sge (Scalar.select (IntOp.cmpi .slt x 0#32) (IntOp.addi x nn) x) 0#32 = 1#1
      ∧ IntOp.cmpi .sle (Scalar.select (IntOp.cmpi .slt x 0#32) (IntOp.addi x nn) x) top = 1#1 := by
  rw [IntOp.cmpi_sge, hlo'] at hlo
  rw [IntOp.cmpi_slt, hnn] at hhi
  have h0 : (0#32).toInt = 0 := by decide
  by_cases hneg : x.toInt < 0
  · have hc : IntOp.cmpi .slt x 0#32 = 1#1 := IntOp.cmpi_slt.2 (by rw [h0]; exact hneg)
    have hs : (IntOp.addi x nn).toInt = x.toInt + n := by
      unfold IntOp.addi
      rw [toInt_add_of_bounds x nn (by rw [hnn]; omega) (by rw [hnn]; omega), hnn]
    have hsel : Scalar.select (IntOp.cmpi .slt x 0#32) (IntOp.addi x nn) x = IntOp.addi x nn := if_pos hc
    rw [IntOp.cmpi_sge, IntOp.cmpi_sle, hsel, h0, htop, hs]
    omega
  · have hc : ¬ IntOp.cmpi .slt x 0#32 = 1#1 := fun h => hneg (by rw [IntOp.cmpi_slt, h0] at h; exact h)
    have hsel : Scalar.select (IntOp.cmpi .slt x 0#32) (IntOp.addi x nn) x = x := if_neg hc
    rw [IntOp.cmpi_sge, IntOp.cmpi_sle, hsel, h0, htop]
    omega

/-- A signed index with -100000 ≤ x < 100000, wrapped, lies in [0, 99999]. -/
theorem wrap_inb_100000 (x : BitVec 32) (hlo : IntOp.cmpi .sge x 4294867296#32 = 1#1)
    (hhi : IntOp.cmpi .slt x 100000#32 = 1#1) :
    IntOp.cmpi .sge (Scalar.select (IntOp.cmpi .slt x 0#32) (IntOp.addi x 100000#32) x) 0#32 = 1#1
      ∧ IntOp.cmpi .sle (Scalar.select (IntOp.cmpi .slt x 0#32) (IntOp.addi x 100000#32) x) 99999#32 = 1#1 :=
  wrap_inb x 100000#32 4294867296#32 99999#32 100000 (by decide) (by decide) (by decide) (by decide) (by decide) hlo hhi

/-- A signed index with -10000 ≤ x < 10000, wrapped, lies in [0, 9999]. -/
theorem wrap_inb_10000 (x : BitVec 32) (hlo : IntOp.cmpi .sge x 4294957296#32 = 1#1)
    (hhi : IntOp.cmpi .slt x 10000#32 = 1#1) :
    IntOp.cmpi .sge (Scalar.select (IntOp.cmpi .slt x 0#32) (IntOp.addi x 10000#32) x) 0#32 = 1#1
      ∧ IntOp.cmpi .sle (Scalar.select (IntOp.cmpi .slt x 0#32) (IntOp.addi x 10000#32) x) 9999#32 = 1#1 :=
  wrap_inb x 10000#32 4294957296#32 9999#32 10000 (by decide) (by decide) (by decide) (by decide) (by decide) hlo hhi

end Cert.EdgeMlp.Range
-- ==== Proof.KerTake.lean ====
/-
  Where every index names a row, the masked take is the plain gather.

  The kernel's program fetches a table row per edge with a test: the index is wrapped (the table's height is added
  to a negative index), and the row is kept only if the wrapped index lies between 0 and the last row; otherwise a
  fill value stands in.  When every index x satisfies -n ≤ x < n for the table's height n, the wrapped index always
  lies in [0, n-1], so the test passes on every edge and the fill never shows: the masked take equals the gather.
-/
import proofs.«419490_j74663711473943_1_alg».proof.Proof.KerTerms
import proofs.«419490_j74663711473943_1_alg».proof.Proof.WrapWord
import Idealize.ShloMosaic.Lib.ValueIdx
import Idealize.ShloMosaic.PureOps.Reduce

noncomputable section

namespace Cert.EdgeMlp.Ker

open Cert.KernelIdeal Cert.KernelIdeal.Gen Idealize.ShloMosaic
open Cert.EdgeMlp.Range

variable {F : FTy → Type} [FloatOps F]

/-- A left fold by "and" from 1 over words that are all 1 is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, hl => by
    rw [List.foldl_cons, hl a List.mem_cons_self, show IntOp.andi 1#1 1#1 = 1#1 from by decide]
    exact foldl_andi_one f l fun n hn => hl n (List.mem_cons_of_mem a hn)

/-- A reduction by "and" from 1 of a mask that is 1 everywhere is 1 at every result index. -/
private theorem reduce_andi_of_all {s t u : Shape} {axes : List (Fin s.rank)} (x : s.Idx → BitVec 1)
    (init : u.Idx → BitVec 1) (h : s.ReducesTo axes t) (hu : 0 < u.numel) (hinit : ∀ k, init k = 1#1)
    (hx : ∀ i, x i = 1#1) (j : t.Idx) : Host.reduce IntOp.andi x init h hu j = 1#1 := by
  rw [Host.reduce_eq_foldl, hinit]
  exact foldl_andi_one x _ fun n _ => hx n

/-- The wrapped index at an edge: the table's height added when the index is negative. -/
private theorem wrap_apply (n : BitVec 32) (idx : IVec S2000000 32) (k : S2000000.Idx) :
    wrap n idx k = Scalar.select (IntOp.cmpi .slt (idx k) 0#32) (IntOp.addi (idx k) n) (idx k) := rfl

/-- Each start index is the wrapped index of some edge. -/
private theorem starts_apply (n : BitVec 32) (idx : IVec S2000000 32) (i : S2000000x1.Idx) :
    ∃ k : S2000000.Idx, starts n idx i = wrap n idx k := ⟨_, rfl⟩

/-- The test's mask at a start index: both comparisons against the scalar bounds. -/
private theorem mask_apply (hi : BitVec 32) (st : IVec S2000000x1 32) (i : S2000000x1.Idx) :
    (andi (cmpi .sge st (broadcastInDim S2000000x1 ![] bcast_S_S2000000x1 (constantI S_ 32 0#32)))
      (cmpi .sle st (broadcastInDim S2000000x1 ![0, 1] bcast_S1x1_S2000000x1_0_1
        (broadcastInDim S1x1 ![1] bcast_S1_S1x1_1 (constantI S1 32 hi))))) i
      = IntOp.andi (IntOp.cmpi .sge (st i) 0#32) (IntOp.cmpi .sle (st i) hi) := rfl

/-- Indices in [-100000, 100000) all pass the test against a table of 100000 rows. -/
private theorem inRange_100000 (idx : IVec S2000000 32)
    (h : ∀ k : S2000000.Idx, IntOp.cmpi .sge (idx k) 4294867296#32 = 1#1 ∧ IntOp.cmpi .slt (idx k) 100000#32 = 1#1) :
    inRange 99999#32 (starts 100000#32 idx) = fun _ => 1#1 := by
  funext e
  unfold inRange
  refine reduce_andi_of_all _ _ _ _ (fun _ => rfl) (fun i => ?_) e
  rw [mask_apply]
  obtain ⟨k, hk⟩ := starts_apply 100000#32 idx i
  rw [hk, wrap_apply]
  exact IntOp.andi_eq_one.2 (wrap_inb_100000 (idx k) (h k).1 (h k).2)

/-- Indices in [-10000, 10000) all pass the test against a table of 10000 rows. -/
private theorem inRange_10000 (idx : IVec S2000000 32)
    (h : ∀ k : S2000000.Idx, IntOp.cmpi .sge (idx k) 4294957296#32 = 1#1 ∧ IntOp.cmpi .slt (idx k) 10000#32 = 1#1) :
    inRange 9999#32 (starts 10000#32 idx) = fun _ => 1#1 := by
  funext e
  unfold inRange
  refine reduce_andi_of_all _ _ _ _ (fun _ => rfl) (fun i => ?_) e
  rw [mask_apply]
  obtain ⟨k, hk⟩ := starts_apply 10000#32 idx i
  rw [hk, wrap_apply]
  exact IntOp.andi_eq_one.2 (wrap_inb_10000 (idx k) (h k).1 (h k).2)

/-- Each source index is an entry of the edge list. -/
private theorem srcIdx_apply (a2 : IVec S2x2000000 32) (e : S2000000.Idx) :
    ∃ k : S2x2000000.Idx, srcIdx a2 e = a2 k := ⟨_, rfl⟩

/-- Each target index is an entry of the edge list. -/
private theorem tgtIdx_apply (a2 : IVec S2x2000000 32) (e : S2000000.Idx) :
    ∃ k : S2x2000000.Idx, tgtIdx a2 e = a2 k := ⟨_, rfl⟩

/-- A masked take whose mask is 1 everywhere is the taken array. -/
private theorem select_all_one {s T : Shape} {α : Type} (dims : Fin s.rank → Fin T.rank)
    (hb : s.BroadcastsInDim T dims) (a b : T.Idx → α) :
    select (broadcastInDim T dims hb (fun _ : s.Idx => 1#1)) a b = a := by
  funext j
  exact ValueIdx.select_one (a j) (b j)

theorem xsTake_eq (a0 : FVec F S100000x10 .f32) (a2 : IVec S2x2000000 32)
    (h : ∀ i : S2x2000000.Idx, IntOp.cmpi .sge (a2 i) 4294867296#32 = 1#1 ∧ IntOp.cmpi .slt (a2 i) 100000#32 = 1#1) :
    xsTake a0 a2 = xsG a0 a2 := by
  have hm := inRange_100000 (srcIdx a2) fun e => by
    obtain ⟨k, hk⟩ := srcIdx_apply a2 e
    rw [hk]; exact h k
  unfold xsTake xsG
  rw [hm]
  exact select_all_one _ _ _ _

theorem xtTake_eq (a1 : FVec F S100000x5 .f32) (a2 : IVec S2x2000000 32)
    (h : ∀ i : S2x2000000.Idx, IntOp.cmpi .sge (a2 i) 4294867296#32 = 1#1 ∧ IntOp.cmpi .slt (a2 i) 100000#32 = 1#1) :
    xtTake a1 a2 = xtG a1 a2 := by
  have hm := inRange_100000 (tgtIdx a2) fun e => by
    obtain ⟨k, hk⟩ := tgtIdx_apply a2 e
    rw [hk]; exact h k
  unfold xtTake xtG
  rw [hm]
  exact select_all_one _ _ _ _

theorem ugTake_eq (a4 : FVec F S10000x10 .f32) (a5 : IVec S2000000 32)
    (h : ∀ i : S2000000.Idx, IntOp.cmpi .sge (a5 i) 4294957296#32 = 1#1 ∧ IntOp.cmpi .slt (a5 i) 10000#32 = 1#1) :
    ugTake a4 a5 = ugG a4 a5 := by
  have hm := inRange_10000 a5 h
  unfold ugTake ugG
  rw [hm]
  exact select_all_one _ _ _ _

end Cert.EdgeMlp.Ker

end
-- ==== Proof.KerSpec.lean ====
/-
  The four bands are the stacked weight's rows, and the one-row biases are the biases.

  The kernel's program slices rows 0–9, 10–14, 15–24 and 25–34 out of the stacked first-layer weight and reshapes each
  bias vector to one row before the pipeline starts.  Read at an entry, band `b` starting at row `o` is the stacked
  weight at row `o + k`; so the kernel's whole-array function is the network of the specification.
-/
import proofs.«419490_j74663711473943_1_alg».proof.Proof.Gen.KernelIdeal
import proofs.«419490_j74663711473943_1_alg».proof.Proof.KerArr
import Idealize.ShloMosaic.Lib.ValueLayout
import Idealize.ShloMosaic.Lib.Pipeline.Value

noncomputable section

open scoped BigOperators

namespace Cert.EdgeMlp.Ker

open Cert.KernelIdeal Cert.KernelIdeal.Gen Idealize.ShloMosaic Idealize.ShloMosaic.ValueIdx

theorem band0_apply (W1 : S35x10.Idx → EReal) (k j : Fin 10) :
    extractStridedSlice S10x10 ![0, 0] W1 slices_S35x10_S10x10_0_0 (ix2 k j) = W1 (ix2 (⟨k.val, by omega⟩ : Fin 35) j) :=
  extractStridedSlice_apply _ W1 _ (ix2 k j) (ix2 (⟨k.val, by omega⟩ : Fin 35) j) fun a => by
    match a with
    | ⟨0, _⟩ => exact (Nat.zero_add _).symm
    | ⟨1, _⟩ => exact (Nat.zero_add _).symm

theorem band10_apply (W1 : S35x10.Idx → EReal) (k : Fin 5) (j : Fin 10) :
    extractStridedSlice S5x10 ![10, 0] W1 slices_S35x10_S5x10_10_0 (ix2 k j) = W1 (ix2 (⟨10 + k.val, by omega⟩ : Fin 35) j) :=
  extractStridedSlice_apply _ W1 _ (ix2 k j) (ix2 (⟨10 + k.val, by omega⟩ : Fin 35) j) fun a => by
    match a with
    | ⟨0, _⟩ => rfl
    | ⟨1, _⟩ => exact (Nat.zero_add _).symm

theorem band15_apply (W1 : S35x10.Idx → EReal) (k j : Fin 10) :
    extractStridedSlice S10x10 ![15, 0] W1 slices_S35x10_S10x10_15_0 (ix2 k j) = W1 (ix2 (⟨15 + k.val, by omega⟩ : Fin 35) j) :=
  extractStridedSlice_apply _ W1 _ (ix2 k j) (ix2 (⟨15 + k.val, by omega⟩ : Fin 35) j) fun a => by
    match a with
    | ⟨0, _⟩ => rfl
    | ⟨1, _⟩ => exact (Nat.zero_add _).symm

theorem band25_apply (W1 : S35x10.Idx → EReal) (k j : Fin 10) :
    extractStridedSlice S10x10 ![25, 0] W1 slices_S35x10_S10x10_25_0 (ix2 k j) = W1 (ix2 (⟨25 + k.val, by omega⟩ : Fin 35) j) :=
  extractStridedSlice_apply _ W1 _ (ix2 k j) (ix2 (⟨25 + k.val, by omega⟩ : Fin 35) j) fun a => by
    match a with
    | ⟨0, _⟩ => rfl
    | ⟨1, _⟩ => exact (Nat.zero_add _).symm

/-- With the bands cut from `W1` and the bias rows made from `b1`, `b2`, the kernel's whole-array function is the
    specification's network. -/
theorem arrOutAt_bands (xs : S2000000x10.Idx → EReal) (xt : S2000000x5.Idx → EReal) (ea ug : S2000000x10.Idx → EReal)
    (W1 : S35x10.Idx → EReal) (b1 : S10.Idx → EReal) (W2 : S10x10.Idx → EReal) (b2 : S10.Idx → EReal)
    (e : Fin 2000000) (q : Fin 10) :
    arrOutAt xs xt ea ug (extractStridedSlice S10x10 ![0, 0] W1 slices_S35x10_S10x10_0_0)
        (extractStridedSlice S5x10 ![10, 0] W1 slices_S35x10_S5x10_10_0)
        (extractStridedSlice S10x10 ![15, 0] W1 slices_S35x10_S10x10_15_0)
        (extractStridedSlice S10x10 ![25, 0] W1 slices_S35x10_S10x10_25_0)
        (fun i => shapeCast S1x10 b1 shapeCasts_S10_S1x10 i) W2 (fun i => shapeCast S1x10 b2 shapeCasts_S10_S1x10 i) e q
      = outAt xs xt ea ug W1 b1 W2 b2 e q := by
  unfold arrOutAt outAt arrHidden hidden
  simp only [band0_apply, band10_apply, band15_apply, band25_apply, shapeCast_a_1a_apply]

end Cert.EdgeMlp.Ker

end
-- ==== Proof.IndexRange.lean ====
/-
  The index ranges the precondition states, read back.

  The precondition is a conjunction of whole-array tests, the last two of which say that every
  entry of the edge list lies in [-100000, 100000) and every entry of the per-edge batch table lies
  in [-10000, 10000), as signed 32-bit words.  Each test is a reduction by "and" over all axes of a
  pointwise comparison against a broadcast scalar; a reduction by "and" that came out 1 met a 1 at
  every index, so the comparison holds at each index.
-/
import proofs.«419490_j74663711473943_1_alg».proof.Proof.Gen.Pre_finite_inputs
import Idealize.ShloMosaic.Lib.ReduceAll
import Idealize.ShloMosaic.Lib.ValueIdx
import proofs.«419490_j74663711473943_1_alg».proof.Proof.WrapWord

noncomputable section

namespace Cert.EdgeMlp.Range

open Idealize.ShloMosaic Idealize.ShloMosaic.ValueIdx
open Cert.Pre_finite_inputs

/-- The scalar shape has one index. -/
instance subsingleton_scalar_idx : Subsingleton S_.Idx := ⟨fun a b => funext fun d => d.elim0⟩

variable {a0 : FVec Ideal S100000x10 .f32} {a1 : FVec Ideal S100000x5 .f32} {a2 : IVec S2x2000000 32}
  {a3 : FVec Ideal S2000000x10 .f32} {a4 : FVec Ideal S10000x10 .f32} {a5 : IVec S2000000 32}
  {a6 : FVec Ideal S35x10 .f32} {a7 : FVec Ideal S10 .f32} {a8 : FVec Ideal S10x10 .f32} {a9 : FVec Ideal S10 .f32}

/-- Both range tests, at every index: the last two conjuncts of the precondition, each a reduction
    by "and" over all axes, hold pointwise. -/
private theorem ranges (h : fn (F := Ideal) a0 a1 a2 a3 a4 a5 a6 a7 a8 a9 = fun _ => 1#1) :
    (∀ i : S2x2000000.Idx,
        IntOp.andi (IntOp.cmpi .sge (a2 i) 4294867296#32) (IntOp.cmpi .slt (a2 i) 100000#32) = 1#1)
      ∧ ∀ i : S2000000.Idx,
        IntOp.andi (IntOp.cmpi .sge (a5 i) 4294957296#32) (IntOp.cmpi .slt (a5 i) 10000#32) = 1#1 := by
  have h0 := congrFun h ix0
  dsimp only [fn, fn_part1, fn_part2, fn_part3] at h0
  obtain ⟨h12, h51⟩ := IntOp.andi_eq_one.1 h0
  obtain ⟨-, h44⟩ := IntOp.andi_eq_one.1 h12
  exact ⟨fun i => Host.reduce_andi_all _ _ _ _ ix0 h44 i, fun i => Host.reduce_andi_all _ _ _ _ ix0 h51 i⟩

/-- Every entry of the edge list is a NumPy-valid index into a table of 100000 rows. -/
theorem edge_range (h : fn (F := Ideal) a0 a1 a2 a3 a4 a5 a6 a7 a8 a9 = fun _ => 1#1) (i : S2x2000000.Idx) :
    IntOp.cmpi .sge (a2 i) 4294867296#32 = 1#1 ∧ IntOp.cmpi .slt (a2 i) 100000#32 = 1#1 :=
  IntOp.andi_eq_one.1 ((ranges h).1 i)

/-- Every entry of the per-edge batch table is a NumPy-valid index into a table of 10000 rows. -/
theorem batch_range (h : fn (F := Ideal) a0 a1 a2 a3 a4 a5 a6 a7 a8 a9 = fun _ => 1#1) (i : S2000000.Idx) :
    IntOp.cmpi .sge (a5 i) 4294957296#32 = 1#1 ∧ IntOp.cmpi .slt (a5 i) 10000#32 = 1#1 :=
  IntOp.andi_eq_one.1 ((ranges h).2 i)

end Cert.EdgeMlp.Range

end
-- ==== Proof.KerValue.lean ====
/-
  The kernel's result array, under the precondition, as the specification's network of the argument arrays.

  Where every entry of the edge list and of the graph numbers is a valid index (the precondition), each fetched
  row passes the kernel's range test, so its filled takes are the plain gathers; the four weight bands and the bias rows
  are cut from the arguments; so the array the pipeline leaves is the network applied to the gathered rows.
-/
import proofs.«419490_j74663711473943_1_alg».proof.Defs
import proofs.«419490_j74663711473943_1_alg».proof.Proof.KerBlocks
import proofs.«419490_j74663711473943_1_alg».proof.Proof.KerHost
import proofs.«419490_j74663711473943_1_alg».proof.Proof.KerHostW
import proofs.«419490_j74663711473943_1_alg».proof.Proof.KerTake
import proofs.«419490_j74663711473943_1_alg».proof.Proof.KerSpec
import proofs.«419490_j74663711473943_1_alg».proof.Proof.IndexRange

noncomputable section

namespace Cert.EdgeMlp.Ker

open Cert.KernelIdeal Cert.KernelIdeal.Gen Idealize.ShloMosaic Idealize.ShloMosaic.TcCoe Idealize.SL.Sem

variable (m : (ℓ : Loc nD τ sig) → Buf (Elt Ideal) ℓ)

/-- The whole-array function depends only on its eleven arrays. -/
theorem arrOut_congr {xs xs' : S2000000x10.Idx → EReal} {xt xt' : S2000000x5.Idx → EReal} {ea ea' ug ug' : S2000000x10.Idx → EReal}
    {wa wa' : S10x10.Idx → EReal} {wb wb' : S5x10.Idx → EReal} {wc wc' wd wd' : S10x10.Idx → EReal} {br br' : S1x10.Idx → EReal}
    {w2 w2' : S10x10.Idx → EReal} {cr cr' : S1x10.Idx → EReal}
    (h0 : xs = xs') (h1 : xt = xt') (h2 : ea = ea') (h3 : ug = ug') (h4 : wa = wa') (h5 : wb = wb') (h6 : wc = wc')
    (h7 : wd = wd') (h8 : br = br') (h9 : w2 = w2') (h10 : cr = cr') :
    (fun i : S2000000x10.Idx => arrOutAt xs xt ea ug wa wb wc wd br w2 cr (i 0) (i 1))
      = fun i => arrOutAt xs' xt' ea' ug' wa' wb' wc' wd' br' w2' cr' (i 0) (i 1) := by
  subst h0 h1 h2 h3 h4 h5 h6 h7 h8 h9 h10
  rfl

theorem G_eq (hpre : Cert.Pre_KernelIdeal m) (c : Dev nD) :
    G m c = Cert.EdgeMlp.out (xsG (F := Ideal) (m ((c : Thread nD τ).loc main_arg0)) (m ((c : Thread nD τ).loc main_arg2))) (xtG (F := Ideal) (m ((c : Thread nD τ).loc main_arg1)) (m ((c : Thread nD τ).loc main_arg2)))
      (m ((c : Thread nD τ).loc main_arg3)) (ugG (F := Ideal) (m ((c : Thread nD τ).loc main_arg4)) (m ((c : Thread nD τ).loc main_arg5)))
      (m ((c : Thread nD τ).loc main_arg6)) (m ((c : Thread nD τ).loc main_arg7)) (m ((c : Thread nD τ).loc main_arg8)) (m ((c : Thread nD τ).loc main_arg9)) := by
  refine (arrOut_congr (V_v4 m c) (V_v5 m c) (V_main_arg3 m c) (V_v6 m c) (V_v7 m c) (V_v8 m c) (V_v9 m c) (V_v10 m c)
    (V_v11 m c) (V_main_arg8 m c) (V_v12 m c)).trans ?_
  rw [xsTake_eq _ _ (fun j => Cert.EdgeMlp.Range.edge_range (hpre c) j),
    xtTake_eq _ _ (fun j => Cert.EdgeMlp.Range.edge_range (hpre c) j),
    ugTake_eq _ _ (fun j => Cert.EdgeMlp.Range.batch_range (hpre c) j)]
  funext i
  exact arrOutAt_bands _ _ _ _ _ _ _ _ (i 0) (i 1)

end Cert.EdgeMlp.Ker

end
-- ==== Proof.RefTerms.lean ====
/-
  The reference's gathered inputs, named.

  An edge list gives each edge a source node, a target node and a graph number.  The reference reads a table row
  at such an integer the NumPy way: a negative integer counts from the end (the table's height is added to it), and the
  row is then fetched by a gather that clamps a start index into the table.  These are those three gathered arrays
  as functions of the argument arrays, spelt exactly as the reference's program spells them.
-/
import proofs.«419490_j74663711473943_1_alg».proof.Proof.Gen.ReferenceIdeal

noncomputable section

namespace Cert.EdgeMlp.Ref

open Cert.ReferenceIdeal Cert.ReferenceIdeal.Gen Idealize.ShloMosaic

variable {F : FTy → Type} [FloatOps F]

/-- A negative index counts from the end: `n`, the table's height, is added to it; any other index stays. -/
def wrap (n : BitVec 32) (idx : IVec S2000000 32) : IVec S2000000 32 :=
  select (cmpi .slt idx (broadcastInDim S2000000 ![] bcast_S_S2000000 (constantI S_ 32 0#32)))
    (addi idx (broadcastInDim S2000000 ![] bcast_S_S2000000 (constantI S_ 32 n))) idx

/-- Row 0 of the edge list: every edge's source node. -/
def srcIdx (a2 : IVec S2x2000000 32) : IVec S2000000 32 :=
  fun i => shapeCast S2000000 (extractStridedSlice S1x2000000 ![0, 0] a2 slices_S2x2000000_S1x2000000_0_0)
    shapeCasts_S1x2000000_S2000000 i

/-- Row 1 of the edge list: every edge's target node. -/
def tgtIdx (a2 : IVec S2x2000000 32) : IVec S2000000 32 :=
  fun i => shapeCast S2000000 (extractStridedSlice S1x2000000 ![1, 0] a2 slices_S2x2000000_S1x2000000_1_0)
    shapeCasts_S1x2000000_S2000000 i

/-- The start indices of a row gather: one column holding the wrapped index of each edge. -/
def starts (n : BitVec 32) (idx : IVec S2000000 32) : IVec S2000000x1 32 :=
  broadcastInDim S2000000x1 ![0] bcast_S2000000_S2000000x1_0 (wrap n idx)

/-- Each edge's source-node feature row. -/
def xsG (a0 : FVec F S100000x10 .f32) (a2 : IVec S2x2000000 32) : FVec F S2000000x10 .f32 :=
  Host.gather gather_S100000x10_S2000000x1_S2000000x10_1_0_n_n_0_1_110 a0 (starts 100000#32 (srcIdx a2))

/-- Each edge's target-node feature row. -/
def xtG (a1 : FVec F S100000x5 .f32) (a2 : IVec S2x2000000 32) : FVec F S2000000x5 .f32 :=
  Host.gather gather_S100000x5_S2000000x1_S2000000x5_1_0_n_n_0_1_15 a1 (starts 100000#32 (tgtIdx a2))

/-- Each edge's graph-level feature row. -/
def ugG (a4 : FVec F S10000x10 .f32) (a5 : IVec S2000000 32) : FVec F S2000000x10 .f32 :=
  Host.gather gather_S10000x10_S2000000x1_S2000000x10_1_0_n_n_0_1_110 a4 (starts 10000#32 a5)

end Cert.EdgeMlp.Ref

end
-- ==== Proof.RefOut.lean ====
/-
  The reference's result as one term of its ten arguments, for any float values.

  The three gathered arrays and the edge attributes are laid side by side into rows of 35; the first layer multiplies
  by the stacked weight and adds its bias; the rectifier keeps a non-negative value and scales the others by one tenth;
  the second layer multiplies and adds its bias.
-/
import proofs.«419490_j74663711473943_1_alg».proof.Proof.RefTerms

noncomputable section

namespace Cert.EdgeMlp.Ref

open Cert.ReferenceIdeal Cert.ReferenceIdeal.Gen Idealize.ShloMosaic

variable {F : FTy → Type} [FloatOps F]

/-- The four feature rows of every edge laid side by side: a row of 35. -/
def row (a0 : FVec F S100000x10 .f32) (a1 : FVec F S100000x5 .f32) (a2 : IVec S2x2000000 32) (a3 : FVec F S2000000x10 .f32)
    (a4 : FVec F S10000x10 .f32) (a5 : IVec S2000000 32) : FVec F S2000000x35 .f32 :=
  concatenate S2000000x35 1 [⟨S2000000x10, xsG a0 a2⟩, ⟨S2000000x5, xtG a1 a2⟩, ⟨S2000000x10, a3⟩, ⟨S2000000x10, ugG a4 a5⟩]
    concatenates_S2000000x10_S2000000x5_S2000000x10_S2000000x10_S2000000x35_d1

/-- A bias vector repeated on every edge. -/
def bias (b : FVec F S10 .f32) : FVec F S2000000x10 .f32 :=
  broadcastInDim S2000000x10 ![0, 1] bcast_S1x10_S2000000x10_0_1 (broadcastInDim S1x10 ![1] bcast_S10_S1x10_1 b)

/-- The first layer before the rectifier. -/
def pre (a0 : FVec F S100000x10 .f32) (a1 : FVec F S100000x5 .f32) (a2 : IVec S2x2000000 32) (a3 : FVec F S2000000x10 .f32) (a4 : FVec F S10000x10 .f32) (a5 : IVec S2000000 32) (a6 : FVec F S35x10 .f32) (a7 : FVec F S10 .f32) : FVec F S2000000x10 .f32 :=
  addf (Host.dotGeneral dot_S2000000x35_S35x10_S2000000x10_1_0_0_1_n_n none (row a0 a1 a2 a3 a4 a5) a6) (bias a7)

/-- The leaky rectifier as the reference spells it: where `h ≥ 0` the value itself, elsewhere one tenth of it. -/
def leaky (h : FVec F S2000000x10 .f32) : FVec F S2000000x10 .f32 :=
  select (cmpf .oge h (broadcastInDim S2000000x10 ![] bcast_S_S2000000x10 (constant S_ .f32 0x00000000#32))) h
    (mulf (broadcastInDim S2000000x10 ![] bcast_S_S2000000x10 (constant S_ .f32 0x3DCCCCCD#32)) h)

/-- The reference's result as one term of its ten arguments. -/
def refOut (a0 : FVec F S100000x10 .f32) (a1 : FVec F S100000x5 .f32) (a2 : IVec S2x2000000 32) (a3 : FVec F S2000000x10 .f32) (a4 : FVec F S10000x10 .f32) (a5 : IVec S2000000 32) (a6 : FVec F S35x10 .f32) (a7 : FVec F S10 .f32) (a8 : FVec F S10x10 .f32) (a9 : FVec F S10 .f32) : FVec F S2000000x10 .f32 :=
  addf (Host.dotGeneral dot_S2000000x10_S10x10_S2000000x10_1_0_0_1_n_n none (leaky (pre a0 a1 a2 a3 a4 a5 a6 a7)) a8) (bias a9)

end Cert.EdgeMlp.Ref

end
-- ==== Proof.RefRun.lean ====
/-
  The reference's run, for any float values.

  The reference is a straight line of host operations: its two outlined functions (the leaky rectifier, which in
  turn calls a select) are substituted at their call, so @main is one list of forty-eight operations.  Every weakly fair
  execution terminates, and the result buffer then holds one composed term of the ten arguments' launch contents
  (`refOut`).  The arguments are left unchanged.
-/
import proofs.«419490_j74663711473943_1_alg».proof.Proof.RefOut
import Idealize.ShloMosaic.Lib.StableHlo.Run

noncomputable section

namespace Cert.EdgeMlp.Ref

open Cert.ReferenceIdeal Cert.ReferenceIdeal.Gen Idealize.ShloMosaic Idealize.ShloMosaic.TcCoe Idealize.SL.Sem Idealize.ShloMosaic.StableHlo

variable {F : FTy → Type} [FloatOps F]

/-! ## The run -/

/-- @main's operations in order, the two calls unfolded: the rectifier's six and the select's one stand where the call
    stood, over that call's own buffers. -/
abbrev ops : List (HloOp τ sig (Elt F)) :=
  [ StableHlo.unary main_arg2 main_v0 ((extractStridedSlice S1x2000000 ![0, 0] · slices_S2x2000000_S1x2000000_0_0) : (⟨S2x2000000, .i32⟩ : BufTy).Contents (Elt F) → (⟨S1x2000000, .i32⟩ : BufTy).Contents (Elt F)),
    StableHlo.reshape main_v0 main_v1 rfl shapeCasts_S1x2000000_S2000000,
    StableHlo.unary main_arg2 main_v2 ((extractStridedSlice S1x2000000 ![1, 0] · slices_S2x2000000_S1x2000000_1_0) : (⟨S2x2000000, .i32⟩ : BufTy).Contents (Elt F) → (⟨S1x2000000, .i32⟩ : BufTy).Contents (Elt F)),
    StableHlo.reshape main_v2 main_v3 rfl shapeCasts_S1x2000000_S2000000,
    StableHlo.nullary main_c (constantI S_ 32 0#32),
    StableHlo.unary main_c main_v4 (broadcastInDim S2000000 ![] bcast_S_S2000000 : (⟨S_, .i32⟩ : BufTy).Contents (Elt F) → (⟨S2000000, .i32⟩ : BufTy).Contents (Elt F)),
    StableHlo.binary main_v1 main_v4 main_v5 (cmpi .slt : (⟨S2000000, .i32⟩ : BufTy).Contents (Elt F) → (⟨S2000000, .i32⟩ : BufTy).Contents (Elt F) → (⟨S2000000, .i1⟩ : BufTy).Contents (Elt F)),
    StableHlo.nullary main_c_0 (constantI S_ 32 100000#32),
    StableHlo.unary main_c_0 main_v6 (broadcastInDim S2000000 ![] bcast_S_S2000000 : (⟨S_, .i32⟩ : BufTy).Contents (Elt F) → (⟨S2000000, .i32⟩ : BufTy).Contents (Elt F)),
    StableHlo.binary main_v1 main_v6 main_v7 (addi : (⟨S2000000, .i32⟩ : BufTy).Contents (Elt F) → (⟨S2000000, .i32⟩ : BufTy).Contents (Elt F) → (⟨S2000000, .i32⟩ : BufTy).Contents (Elt F)),
    StableHlo.ternary main_v5 main_v7 main_v1 main_v8 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v8 main_v9 (broadcastInDim S2000000x1 ![0] bcast_S2000000_S2000000x1_0 : (⟨S2000000, .i32⟩ : BufTy).Contents (Elt F) → (⟨S2000000x1, .i32⟩ : BufTy).Contents (Elt F)),
    StableHlo.binary main_arg0 main_v9 main_v10 ((fun x i => Host.gather gather_S100000x10_S2000000x1_S2000000x10_1_0_n_n_0_1_110 x i) : (⟨S100000x10, .f32⟩ : BufTy).Contents (Elt F) → (⟨S2000000x1, .i32⟩ : BufTy).Contents (Elt F) → (⟨S2000000x10, .f32⟩ : BufTy).Contents (Elt F)),
    StableHlo.nullary main_c_1 (constantI S_ 32 0#32),
    StableHlo.unary main_c_1 main_v11 (broadcastInDim S2000000 ![] bcast_S_S2000000 : (⟨S_, .i32⟩ : BufTy).Contents (Elt F) → (⟨S2000000, .i32⟩ : BufTy).Contents (Elt F)),
    StableHlo.binary main_v3 main_v11 main_v12 (cmpi .slt : (⟨S2000000, .i32⟩ : BufTy).Contents (Elt F) → (⟨S2000000, .i32⟩ : BufTy).Contents (Elt F) → (⟨S2000000, .i1⟩ : BufTy).Contents (Elt F)),
    StableHlo.nullary main_c_2 (constantI S_ 32 100000#32),
    StableHlo.unary main_c_2 main_v13 (broadcastInDim S2000000 ![] bcast_S_S2000000 : (⟨S_, .i32⟩ : BufTy).Contents (Elt F) → (⟨S2000000, .i32⟩ : BufTy).Contents (Elt F)),
    StableHlo.binary main_v3 main_v13 main_v14 (addi : (⟨S2000000, .i32⟩ : BufTy).Contents (Elt F) → (⟨S2000000, .i32⟩ : BufTy).Contents (Elt F) → (⟨S2000000, .i32⟩ : BufTy).Contents (Elt F)),
    StableHlo.ternary main_v12 main_v14 main_v3 main_v15 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v15 main_v16 (broadcastInDim S2000000x1 ![0] bcast_S2000000_S2000000x1_0 : (⟨S2000000, .i32⟩ : BufTy).Contents (Elt F) → (⟨S2000000x1, .i32⟩ : BufTy).Contents (Elt F)),
    StableHlo.binary main_arg1 main_v16 main_v17 ((fun x i => Host.gather gather_S100000x5_S2000000x1_S2000000x5_1_0_n_n_0_1_15 x i) : (⟨S100000x5, .f32⟩ : BufTy).Contents (Elt F) → (⟨S2000000x1, .i32⟩ : BufTy).Contents (Elt F) → (⟨S2000000x5, .f32⟩ : BufTy).Contents (Elt F)),
    StableHlo.nullary main_c_3 (constantI S_ 32 0#32),
    StableHlo.unary main_c_3 main_v18 (broadcastInDim S2000000 ![] bcast_S_S2000000 : (⟨S_, .i32⟩ : BufTy).Contents (Elt F) → (⟨S2000000, .i32⟩ : BufTy).Contents (Elt F)),
    StableHlo.binary main_arg5 main_v18 main_v19 (cmpi .slt : (⟨S2000000, .i32⟩ : BufTy).Contents (Elt F) → (⟨S2000000, .i32⟩ : BufTy).Contents (Elt F) → (⟨S2000000, .i1⟩ : BufTy).Contents (Elt F)),
    StableHlo.nullary main_c_4 (constantI S_ 32 10000#32),
    StableHlo.unary main_c_4 main_v20 (broadcastInDim S2000000 ![] bcast_S_S2000000 : (⟨S_, .i32⟩ : BufTy).Contents (Elt F) → (⟨S2000000, .i32⟩ : BufTy).Contents (Elt F)),
    StableHlo.binary main_arg5 main_v20 main_v21 (addi : (⟨S2000000, .i32⟩ : BufTy).Contents (Elt F) → (⟨S2000000, .i32⟩ : BufTy).Contents (Elt F) → (⟨S2000000, .i32⟩ : BufTy).Contents (Elt F)),
    StableHlo.ternary main_v19 main_v21 main_arg5 main_v22 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v22 main_v23 (broadcastInDim S2000000x1 ![0] bcast_S2000000_S2000000x1_0 : (⟨S2000000, .i32⟩ : BufTy).Contents (Elt F) → (⟨S2000000x1, .i32⟩ : BufTy).Contents (Elt F)),
    StableHlo.binary main_arg4 main_v23 main_v24 ((fun x i => Host.gather gather_S10000x10_S2000000x1_S2000000x10_1_0_n_n_0_1_110 x i) : (⟨S10000x10, .f32⟩ : BufTy).Contents (Elt F) → (⟨S2000000x1, .i32⟩ : BufTy).Contents (Elt F) → (⟨S2000000x10, .f32⟩ : BufTy).Contents (Elt F)),
    StableHlo.nary ![main_v10, main_v17, main_arg3, main_v24] main_v25 (fun u => concatenate S2000000x35 1 [⟨S2000000x10, u 0⟩, ⟨S2000000x5, u 1⟩, ⟨S2000000x10, u 2⟩, ⟨S2000000x10, u 3⟩] concatenates_S2000000x10_S2000000x5_S2000000x10_S2000000x10_S2000000x35_d1),
    StableHlo.binary main_v25 main_arg6 main_v26 ((fun l r => Host.dotGeneral dot_S2000000x35_S35x10_S2000000x10_1_0_0_1_n_n none l r) : (⟨S2000000x35, .f32⟩ : BufTy).Contents (Elt F) → (⟨S35x10, .f32⟩ : BufTy).Contents (Elt F) → (⟨S2000000x10, .f32⟩ : BufTy).Contents (Elt F)),
    StableHlo.unary main_arg7 main_v27 (broadcastInDim S1x10 ![1] bcast_S10_S1x10_1 : (⟨S10, .f32⟩ : BufTy).Contents (Elt F) → (⟨S1x10, .f32⟩ : BufTy).Contents (Elt F)),
    StableHlo.unary main_v27 main_v28 (broadcastInDim S2000000x10 ![0, 1] bcast_S1x10_S2000000x10_0_1 : (⟨S1x10, .f32⟩ : BufTy).Contents (Elt F) → (⟨S2000000x10, .f32⟩ : BufTy).Contents (Elt F)),
    StableHlo.binary main_v26 main_v28 main_v29 (addf : (⟨S2000000x10, .f32⟩ : BufTy).Contents (Elt F) → (⟨S2000000x10, .f32⟩ : BufTy).Contents (Elt F) → (⟨S2000000x10, .f32⟩ : BufTy).Contents (Elt F)),
    StableHlo.nullary main_cst (constant S_ .f32 0x3DCCCCCD#32),
    StableHlo.TRef.nullary main_call0.cst (constant S_ .f32 0x00000000#32),
    StableHlo.TRef.unary main_call0.cst main_call0.v0 (broadcastInDim S2000000x10 ![] bcast_S_S2000000x10),
    StableHlo.TRef.binary (.of main_v29 : StableHlo.TRef sig ⟨S2000000x10, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S2000000x10 ![] bcast_S_S2000000x10),
    StableHlo.TRef.binary main_call0.v3 (.of main_v29 : StableHlo.TRef sig ⟨S2000000x10, .f32⟩) main_call0.v4 mulf,
    StableHlo.TRef.ternary main_call0.v1 (.of main_v29 : StableHlo.TRef sig ⟨S2000000x10, .f32⟩) main_call0.v4 main_call0.call0.v0 select,
    StableHlo.binary main_v30 main_arg8 main_v31 ((fun l r => Host.dotGeneral dot_S2000000x10_S10x10_S2000000x10_1_0_0_1_n_n none l r) : (⟨S2000000x10, .f32⟩ : BufTy).Contents (Elt F) → (⟨S10x10, .f32⟩ : BufTy).Contents (Elt F) → (⟨S2000000x10, .f32⟩ : BufTy).Contents (Elt F)),
    StableHlo.unary main_arg9 main_v32 (broadcastInDim S1x10 ![1] bcast_S10_S1x10_1 : (⟨S10, .f32⟩ : BufTy).Contents (Elt F) → (⟨S1x10, .f32⟩ : BufTy).Contents (Elt F)),
    StableHlo.unary main_v32 main_v33 (broadcastInDim S2000000x10 ![0, 1] bcast_S1x10_S2000000x10_0_1 : (⟨S1x10, .f32⟩ : BufTy).Contents (Elt F) → (⟨S2000000x10, .f32⟩ : BufTy).Contents (Elt F)),
    StableHlo.binary main_v31 main_v33 main_v34 (addf : (⟨S2000000x10, .f32⟩ : BufTy).Contents (Elt F) → (⟨S2000000x10, .f32⟩ : BufTy).Contents (Elt F) → (⟨S2000000x10, .f32⟩ : BufTy).Contents (Elt F)) ]

set_option maxRecDepth 2048 in
/-- @main is that straight line once the two functions unfold at their calls and sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩

set_option maxRecDepth 8192 in
set_option maxHeartbeats 1600000 in
/-- The fold at the result buffer is `refOut` of the arguments: each operation's result at its own buffer is its
    function of its operands' contents, and at any other buffer what was there; what is left once every operation has been
    read this way is `refOut` with its definitions unfolded. -/
theorem out_eq (V : Valuation τ sig (Elt F)) :
    after ops V (main_v34 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  after_results_simp
  unfold refOut pre row bias leaky xsG xtG ugG starts wrap srcIdx tgtIdx
  rfl

set_option maxRecDepth 8192 in
set_option maxHeartbeats 1600000 in
/-- No operation writes argument 0. -/
theorem arg0_eq (V : Valuation τ sig (Elt F)) :
    after ops V (main_arg0 : DevRef τ sig) = V (main_arg0 : DevRef τ sig) := by
  after_results_simp

set_option maxRecDepth 8192 in
set_option maxHeartbeats 1600000 in
/-- No operation writes argument 1. -/
theorem arg1_eq (V : Valuation τ sig (Elt F)) :
    after ops V (main_arg1 : DevRef τ sig) = V (main_arg1 : DevRef τ sig) := by
  after_results_simp

set_option maxRecDepth 8192 in
set_option maxHeartbeats 1600000 in
/-- No operation writes argument 2. -/
theorem arg2_eq (V : Valuation τ sig (Elt F)) :
    after ops V (main_arg2 : DevRef τ sig) = V (main_arg2 : DevRef τ sig) := by
  after_results_simp

set_option maxRecDepth 8192 in
set_option maxHeartbeats 1600000 in
/-- No operation writes argument 3. -/
theorem arg3_eq (V : Valuation τ sig (Elt F)) :
    after ops V (main_arg3 : DevRef τ sig) = V (main_arg3 : DevRef τ sig) := by
  after_results_simp

set_option maxRecDepth 8192 in
set_option maxHeartbeats 1600000 in
/-- No operation writes argument 4. -/
theorem arg4_eq (V : Valuation τ sig (Elt F)) :
    after ops V (main_arg4 : DevRef τ sig) = V (main_arg4 : DevRef τ sig) := by
  after_results_simp

set_option maxRecDepth 8192 in
set_option maxHeartbeats 1600000 in
/-- No operation writes argument 5. -/
theorem arg5_eq (V : Valuation τ sig (Elt F)) :
    after ops V (main_arg5 : DevRef τ sig) = V (main_arg5 : DevRef τ sig) := by
  after_results_simp

set_option maxRecDepth 8192 in
set_option maxHeartbeats 1600000 in
/-- No operation writes argument 6. -/
theorem arg6_eq (V : Valuation τ sig (Elt F)) :
    after ops V (main_arg6 : DevRef τ sig) = V (main_arg6 : DevRef τ sig) := by
  after_results_simp

set_option maxRecDepth 8192 in
set_option maxHeartbeats 1600000 in
/-- No operation writes argument 7. -/
theorem arg7_eq (V : Valuation τ sig (Elt F)) :
    after ops V (main_arg7 : DevRef τ sig) = V (main_arg7 : DevRef τ sig) := by
  after_results_simp

set_option maxRecDepth 8192 in
set_option maxHeartbeats 1600000 in
/-- No operation writes argument 8. -/
theorem arg8_eq (V : Valuation τ sig (Elt F)) :
    after ops V (main_arg8 : DevRef τ sig) = V (main_arg8 : DevRef τ sig) := by
  after_results_simp

set_option maxRecDepth 8192 in
set_option maxHeartbeats 1600000 in
/-- No operation writes argument 9. -/
theorem arg9_eq (V : Valuation τ sig (Elt F)) :
    after ops V (main_arg9 : DevRef τ sig) = V (main_arg9 : DevRef τ sig) := by
  after_results_simp

/-- For any float values, from any memory with zero counters: every weakly fair execution of @main terminates with the
    result buffer at `refOut` of the arguments' launch contents, and the arguments unchanged. -/
theorem run_refOut (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v34) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v34).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.EdgeMlp.Ref

end
-- ==== Proof.RefRead.lean ====
/-
  The reference's composed term read at one element, on the extended reals.

  Each operation of the term is read at an index `(e, j)`: a bias broadcast is the bias at `j`; a product with a
  weight matrix is the sum over the contracted coordinate; the row of 35 is, band by band, one of its four pieces; the
  rectifier is `act`.  The sum over the 35 columns splits into the four bands in the order the pieces are laid out,
  which is the order in which the common function adds its four partial products.
-/
import proofs.«419490_j74663711473943_1_alg».proof.Proof.RefOut
import proofs.«419490_j74663711473943_1_alg».proof.Proof.Spec
import Idealize.ShloMosaic.Lib.ValueIdx
import Idealize.ShloMosaic.Lib.Pipeline.Value
import Idealize.ShloMosaic.Lib.StackMember
import Idealize.ShloMosaic.PureOps.Ideal.Laws
import Mathlib.Algebra.BigOperators.Fin

noncomputable section

open scoped BigOperators

namespace Cert.EdgeMlp.Ref

open Cert.ReferenceIdeal Cert.ReferenceIdeal.Gen Idealize.ShloMosaic Idealize.ShloMosaic.ValueIdx Cert.EdgeMlp

/-! ## The bias -/

/-- A bias repeated on every edge reads, at edge `e` and feature `j`, the bias at `j`. -/
theorem bias_apply (b : FVec Ideal S10 .f32) (e : Fin 2000000) (j : Fin 10) : bias b (ix2 e j) = b (ix1 j) := by
  unfold bias
  rw [broadcastInDim_apply ![0, 1] bcast_S1x10_S2000000x10_0_1 _ (ix2 e j) (ix2 (0 : Fin 1) j)
      (fun a => by match a with | ⟨0, _⟩ => rfl | ⟨1, _⟩ => rfl),
    broadcastInDim_apply ![1] bcast_S10_S1x10_1 b (ix2 (0 : Fin 1) j) (ix1 j)
      (fun a => by match a with | ⟨0, _⟩ => rfl)]

/-! ## The two products -/

/-- The first layer's product at `(e, j)`: the sum over the 35 columns of the row. -/
theorem dot1_apply (l : FVec Ideal S2000000x35 .f32) (r : FVec Ideal S35x10 .f32) (e : Fin 2000000) (j : Fin 10) :
    Host.dotGeneral dot_S2000000x35_S35x10_S2000000x10_1_0_0_1_n_n none l r (ix2 e j) = ∑ k : Fin 35, l (ix2 e k) * r (ix2 k j) :=
  StackMember.dotGeneral_plain_apply (m := 2000000) (n := 10) (k := 35) none l r e j

/-- The second layer's product at `(e, j)`: the sum over the 10 hidden units. -/
theorem dot2_apply (l : FVec Ideal S2000000x10 .f32) (r : FVec Ideal S10x10 .f32) (e : Fin 2000000) (j : Fin 10) :
    Host.dotGeneral dot_S2000000x10_S10x10_S2000000x10_1_0_0_1_n_n none l r (ix2 e j) = ∑ k : Fin 10, l (ix2 e k) * r (ix2 k j) :=
  StackMember.dotGeneral_plain_apply (m := 2000000) (n := 10) (k := 10) none l r e j

/-! ## The row of 35, band by band -/

/-- Columns 0–9 of the row are the gathered source-node features. -/
theorem row_apply_xs (a0 : FVec Ideal S100000x10 .f32) (a1 : FVec Ideal S100000x5 .f32) (a2 : IVec S2x2000000 32)
    (a3 : FVec Ideal S2000000x10 .f32) (a4 : FVec Ideal S10000x10 .f32) (a5 : IVec S2000000 32) (e : Fin 2000000) (k : Fin 10) :
    row a0 a1 a2 a3 a4 a5 (ix2 e (⟨k.val, by omega⟩ : Fin 35)) = xsG a0 a2 (ix2 e k) := by
  unfold row
  exact concatenate_apply_piece (t := S2000000x35) 1 [⟨S2000000x10, xsG a0 a2⟩, ⟨S2000000x5, xtG a1 a2⟩, ⟨S2000000x10, a3⟩, ⟨S2000000x10, ugG a4 a5⟩]
    concatenates_S2000000x10_S2000000x5_S2000000x10_S2000000x10_S2000000x35_d1 (ix2 e (⟨k.val, by omega⟩ : Fin 35)) 0 (by simp) S2000000x10 (xsG a0 a2) rfl rfl
    0 rfl (ix2 e k) (fun b hb => by match b with | ⟨0, _⟩ => rfl | ⟨1, _⟩ => exact absurd rfl hb) (by show 0 + k.val = k.val; omega)

/-- Columns 10–14 are the gathered target-node features. -/
theorem row_apply_xt (a0 : FVec Ideal S100000x10 .f32) (a1 : FVec Ideal S100000x5 .f32) (a2 : IVec S2x2000000 32)
    (a3 : FVec Ideal S2000000x10 .f32) (a4 : FVec Ideal S10000x10 .f32) (a5 : IVec S2000000 32) (e : Fin 2000000) (k : Fin 5) :
    row a0 a1 a2 a3 a4 a5 (ix2 e (⟨10 + k.val, by omega⟩ : Fin 35)) = xtG a1 a2 (ix2 e k) := by
  unfold row
  exact concatenate_apply_piece (t := S2000000x35) 1 [⟨S2000000x10, xsG a0 a2⟩, ⟨S2000000x5, xtG a1 a2⟩, ⟨S2000000x10, a3⟩, ⟨S2000000x10, ugG a4 a5⟩]
    concatenates_S2000000x10_S2000000x5_S2000000x10_S2000000x10_S2000000x35_d1 (ix2 e (⟨10 + k.val, by omega⟩ : Fin 35)) 1 (by simp) S2000000x5 (xtG a1 a2) rfl rfl
    10 rfl (ix2 e k) (fun b hb => by match b with | ⟨0, _⟩ => rfl | ⟨1, _⟩ => exact absurd rfl hb) rfl

/-- Columns 15–24 are the edge's own attributes. -/
theorem row_apply_ea (a0 : FVec Ideal S100000x10 .f32) (a1 : FVec Ideal S100000x5 .f32) (a2 : IVec S2x2000000 32)
    (a3 : FVec Ideal S2000000x10 .f32) (a4 : FVec Ideal S10000x10 .f32) (a5 : IVec S2000000 32) (e : Fin 2000000) (k : Fin 10) :
    row a0 a1 a2 a3 a4 a5 (ix2 e (⟨15 + k.val, by omega⟩ : Fin 35)) = a3 (ix2 e k) := by
  unfold row
  exact concatenate_apply_piece (t := S2000000x35) 1 [⟨S2000000x10, xsG a0 a2⟩, ⟨S2000000x5, xtG a1 a2⟩, ⟨S2000000x10, a3⟩, ⟨S2000000x10, ugG a4 a5⟩]
    concatenates_S2000000x10_S2000000x5_S2000000x10_S2000000x10_S2000000x35_d1 (ix2 e (⟨15 + k.val, by omega⟩ : Fin 35)) 2 (by simp) S2000000x10 a3 rfl rfl
    15 rfl (ix2 e k) (fun b hb => by match b with | ⟨0, _⟩ => rfl | ⟨1, _⟩ => exact absurd rfl hb) rfl

/-- Columns 25–34 are the gathered graph-level features. -/
theorem row_apply_ug (a0 : FVec Ideal S100000x10 .f32) (a1 : FVec Ideal S100000x5 .f32) (a2 : IVec S2x2000000 32)
    (a3 : FVec Ideal S2000000x10 .f32) (a4 : FVec Ideal S10000x10 .f32) (a5 : IVec S2000000 32) (e : Fin 2000000) (k : Fin 10) :
    row a0 a1 a2 a3 a4 a5 (ix2 e (⟨25 + k.val, by omega⟩ : Fin 35)) = ugG a4 a5 (ix2 e k) := by
  unfold row
  exact concatenate_apply_piece (t := S2000000x35) 1 [⟨S2000000x10, xsG a0 a2⟩, ⟨S2000000x5, xtG a1 a2⟩, ⟨S2000000x10, a3⟩, ⟨S2000000x10, ugG a4 a5⟩]
    concatenates_S2000000x10_S2000000x5_S2000000x10_S2000000x10_S2000000x35_d1 (ix2 e (⟨25 + k.val, by omega⟩ : Fin 35)) 3 (by simp) S2000000x10 (ugG a4 a5) rfl rfl
    25 rfl (ix2 e k) (fun b hb => by match b with | ⟨0, _⟩ => rfl | ⟨1, _⟩ => exact absurd rfl hb) rfl

/-! ## A sum over the 35 columns, band by band -/

/-- A sum over 35 = 10 + 5 + 10 + 10 indices is the sum of the four bands' sums, in order. -/
theorem sum_bands {M : Type*} [AddCommMonoid M] (f : Fin 35 → M) :
    ∑ k : Fin 35, f k
      = (∑ k : Fin 10, f ⟨k.val, by omega⟩) + (∑ k : Fin 5, f ⟨10 + k.val, by omega⟩)
        + (∑ k : Fin 10, f ⟨15 + k.val, by omega⟩) + (∑ k : Fin 10, f ⟨25 + k.val, by omega⟩) := by
  have h : (∑ k : Fin 35, f k) = ∑ k : Fin (10 + 5 + 10 + 10), f k := rfl
  rw [h, Fin.sum_univ_add, Fin.sum_univ_add, Fin.sum_univ_add]
  rfl

/-! ## The rectifier -/

/-- The reference's rectifier at an element is `act` of the element. -/
theorem leaky_apply (h : FVec Ideal S2000000x10 .f32) (i : S2000000x10.Idx) : leaky h i = act (h i) := by
  show Scalar.select (Ideal.cmp .oge (h i) (Ideal.ofBits .f32 0x00000000#32)) (h i) (Ideal.ofBits .f32 0x3DCCCCCD#32 * h i) = act (h i)
  rw [Ideal.ofBits_zero_f32]
  exact select_oge (h i)

/-! ## The whole term -/

/-- The first layer before the rectifier, at edge `e` and hidden unit `j`, is the common function's `hidden`. -/
theorem pre_apply (a0 : FVec Ideal S100000x10 .f32) (a1 : FVec Ideal S100000x5 .f32) (a2 : IVec S2x2000000 32)
    (a3 : FVec Ideal S2000000x10 .f32) (a4 : FVec Ideal S10000x10 .f32) (a5 : IVec S2000000 32) (a6 : FVec Ideal S35x10 .f32)
    (a7 : FVec Ideal S10 .f32) (e : Fin 2000000) (j : Fin 10) :
    pre a0 a1 a2 a3 a4 a5 a6 a7 (ix2 e j) = hidden (xsG a0 a2) (xtG a1 a2) a3 (ugG a4 a5) a6 a7 e j := by
  unfold pre hidden
  rw [addf_apply, dot1_apply, bias_apply, sum_bands]
  simp only [row_apply_xs, row_apply_xt, row_apply_ea, row_apply_ug]

/-- The reference's composed term is the common function of the gathered arrays and the weights. -/
theorem refOut_eq (a0 : FVec Ideal S100000x10 .f32) (a1 : FVec Ideal S100000x5 .f32) (a2 : IVec S2x2000000 32)
    (a3 : FVec Ideal S2000000x10 .f32) (a4 : FVec Ideal S10000x10 .f32) (a5 : IVec S2000000 32) (a6 : FVec Ideal S35x10 .f32)
    (a7 : FVec Ideal S10 .f32) (a8 : FVec Ideal S10x10 .f32) (a9 : FVec Ideal S10 .f32) :
    refOut a0 a1 a2 a3 a4 a5 a6 a7 a8 a9 = Cert.EdgeMlp.out (xsG a0 a2) (xtG a1 a2) a3 (ugG a4 a5) a6 a7 a8 a9 := by
  funext i
  obtain ⟨e, j, rfl⟩ : ∃ (e : Fin 2000000) (j : Fin 10), i = ix2 e j := ⟨i 0, i 1, eq_ix2 i⟩
  rw [Cert.EdgeMlp.out_ix2]
  unfold refOut outAt
  rw [addf_apply, dot2_apply, bias_apply]
  refine congrArg (· + a9 (ix1 j)) (Finset.sum_congr rfl fun k _ => ?_)
  rw [leaky_apply, pre_apply]

end Cert.EdgeMlp.Ref

end
-- ==== Proof.RefValue.lean ====
/-
  The reference's run on the extended reals, stated at the common function.

  Every weakly fair execution of the reference terminates; its result buffer then holds the edge-update network
  (`Cert.EdgeMlp.out`) of the three gathered arrays, the edge attributes and the four weight arrays, read from the launch
  contents of the arguments; and the arguments are unchanged.  It is the run for any float values, whose result is one
  composed term of the arguments, followed by that term's value element by element on the extended reals.
-/
import proofs.«419490_j74663711473943_1_alg».proof.Proof.RefRun
import proofs.«419490_j74663711473943_1_alg».proof.Proof.RefRead

noncomputable section

namespace Cert.EdgeMlp.Ref

open Cert.ReferenceIdeal Cert.ReferenceIdeal.Gen Idealize.ShloMosaic Idealize.ShloMosaic.TcCoe Idealize.SL.Sem Idealize.ShloMosaic.StableHlo

/-- On the extended reals, from any memory with zero counters: every weakly fair execution of the reference terminates
    with its result the edge-update network of the gathered arrays and the weights, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread nD τ).loc main_v34)
            = Cert.EdgeMlp.out (xsG (F := Ideal) (m ((c.tc : Thread nD τ).loc main_arg0)) (m ((c.tc : Thread nD τ).loc main_arg2)))
                (xtG (F := Ideal) (m ((c.tc : Thread nD τ).loc main_arg1)) (m ((c.tc : Thread nD τ).loc main_arg2)))
                (m ((c.tc : Thread nD τ).loc main_arg3))
                (ugG (F := Ideal) (m ((c.tc : Thread nD τ).loc main_arg4)) (m ((c.tc : Thread nD τ).loc main_arg5)))
                (m ((c.tc : Thread nD τ).loc main_arg6)) (m ((c.tc : Thread nD τ).loc main_arg7))
                (m ((c.tc : Thread nD τ).loc main_arg8)) (m ((c.tc : Thread nD τ).loc main_arg9))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9) :=
  (θ_run defs _ _).mono (fun _ h c => ⟨(h c).1.trans (refOut_eq _ _ _ _ _ _ _ _ _ _), (h c).2⟩) (run_refOut m ρ)

end Cert.EdgeMlp.Ref

end
-- ==== Proof.Agree.lean ====
/-
  The two programs fetch the same rows.

  Both programs wrap a negative index the same way and fetch rows by the same clamping gather; the reference's
  gathered arrays and the kernel's plain (untested) gathers are therefore the same functions of the argument arrays.
  The two programs only name their shapes and side conditions separately.
-/
import proofs.«419490_j74663711473943_1_alg».proof.Proof.RefTerms
import proofs.«419490_j74663711473943_1_alg».proof.Proof.KerTerms

noncomputable section

namespace Cert.EdgeMlp

open Idealize.ShloMosaic

variable {F : FTy → Type} [FloatOps F]

theorem xsG_agree (a0 : FVec F Cert.KernelIdeal.S100000x10 .f32) (a2 : IVec Cert.KernelIdeal.S2x2000000 32) :
    Ref.xsG a0 a2 = Ker.xsG a0 a2 := rfl

theorem xtG_agree (a1 : FVec F Cert.KernelIdeal.S100000x5 .f32) (a2 : IVec Cert.KernelIdeal.S2x2000000 32) :
    Ref.xtG a1 a2 = Ker.xtG a1 a2 := rfl

theorem ugG_agree (a4 : FVec F Cert.KernelIdeal.S10000x10 .f32) (a5 : IVec Cert.KernelIdeal.S2000000 32) :
    Ref.ugG a4 a5 = Ker.ugG a4 a5 := rfl

end Cert.EdgeMlp

end
-- ==== Proof.lean ====
/-
  The claims of this certificate, assembled.

  The kernel computes, for every edge of a graph, a two-layer network of the edge's gathered source, target and graph
  rows and its own attributes; the reference computes the same network on the concatenated row.  Over the extended
  reals the kernel's four partial products are the reference's one product over the concatenated row (addition is
  commutative and associative), the two spellings of the leaky rectifier agree (they differ only at zero, where both
  give zero), and every change of float format is the identity.  The two programs treat an out-of-range index
  differently (a fill against a clamp), which is why the precondition keeps every index in range; under it the
  kernel's filled takes are the reference's gathers.

  The three frames: the two kernels' are the pipeline's (generated); the reference's is its run with the result
  dropped.  The idealization rewrote nothing, so `preserves` is trivial.
-/
import proofs.«419490_j74663711473943_1_alg».proof.Defs
import proofs.«419490_j74663711473943_1_alg».proof.Proof.Gen.Kernel
import proofs.«419490_j74663711473943_1_alg».proof.Proof.Gen.Kernel.Frame
import proofs.«419490_j74663711473943_1_alg».proof.Proof.Gen.KernelIdeal
import proofs.«419490_j74663711473943_1_alg».proof.Proof.Gen.KernelIdeal.Frame
import proofs.«419490_j74663711473943_1_alg».proof.Proof.Gen.KernelIdeal.Value
import proofs.«419490_j74663711473943_1_alg».proof.Proof.Gen.ReferenceIdeal
import proofs.«419490_j74663711473943_1_alg».proof.Proof.Gen.Pre_finite_inputs
import proofs.«419490_j74663711473943_1_alg».proof.Proof.KerValue
import proofs.«419490_j74663711473943_1_alg».proof.Proof.RefValue
import proofs.«419490_j74663711473943_1_alg».proof.Proof.Agree
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.EdgeMlp.Ref.run m ρ)

/-- From memories agreeing on the arguments both programs end, the kernel's result array at the network of the rows
    it gathers, the reference's at the network of the rows it gathers, and those rows are the same. -/
theorem algebraic : Cert.algebraic_KernelIdeal_ReferenceIdeal := by
  intro m ρ m' ρ' hpre hagree
  refine ⟨fun c => Cert.EdgeMlp.Ker.G m c, Cert.EdgeMlp.Ker.run_G m ρ, ?_⟩
  refine (θ_run Cert.ReferenceIdeal.defs _ _).mono (fun _ h c => ⟨(h c).1.trans ?_, (h c).2⟩)
    (Cert.EdgeMlp.Ref.run m' ρ')
  obtain ⟨e0, e1, e2, e3, e4, e5, e6, e7, e8, e9⟩ := hagree c
  show _ = Cert.EdgeMlp.Ker.G m c
  rw [Cert.EdgeMlp.Ker.G_eq m hpre c, e0, e1, e2, e3, e4, e5, e6, e7, e8, e9, Cert.EdgeMlp.xsG_agree,
    Cert.EdgeMlp.xtG_agree, Cert.EdgeMlp.ugG_agree]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
